-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))

def preserves_Kernel_KernelIdeal : Prop :=
  IdealRules.named_const.Statement Cert.KernelIdeal.κ "inv_alpha" .f32 0x40A00000#32 ((67108864 / 13421773 : ℝ) : EReal)

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v2)) (v1 : (c : Dev Cert.KernelIdeal.nD) → Buf (Elt Ideal) ((c.tc : Thread Cert.KernelIdeal.nD Cert.KernelIdeal.τ).loc Cert.KernelIdeal.main_v3)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v2) = v0 c
          ∧ r.2.mem ((c.tc : Thread Cert.KernelIdeal.nD Cert.KernelIdeal.τ).loc Cert.KernelIdeal.main_v3) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v4) = v0 c
          ∧ r.2.mem ((c.tc : Thread Cert.ReferenceIdeal.nD Cert.ReferenceIdeal.τ).loc Cert.ReferenceIdeal.main_v25) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S10000x128 : Shape := ⟨2, ![10000, 128]⟩
abbrev S10000x10000 : Shape := ⟨2, ![10000, 10000]⟩
abbrev S128x64 : Shape := ⟨2, ![128, 64]⟩
abbrev S64 : Shape := ⟨1, ![64]⟩
abbrev S10x64 : Shape := ⟨2, ![10, 64]⟩
abbrev S_ : Shape := ⟨0, ![]⟩

class Facts : Prop where
  bcast_S_S10000x128 : S_.BroadcastsInDim S10000x128 (![] : Fin 0 → Fin S10000x128.rank)
  reducesTo_S10000x128_S_d0_1 : S10000x128.ReducesTo [0, 1] S_
  h_S_ : 0 < S_.numel
  bcast_S_S10000x10000 : S_.BroadcastsInDim S10000x10000 (![] : Fin 0 → Fin S10000x10000.rank)
  reducesTo_S10000x10000_S_d0_1 : S10000x10000.ReducesTo [0, 1] S_
  bcast_S_S128x64 : S_.BroadcastsInDim S128x64 (![] : Fin 0 → Fin S128x64.rank)
  reducesTo_S128x64_S_d0_1 : S128x64.ReducesTo [0, 1] S_
  bcast_S_S64 : S_.BroadcastsInDim S64 (![] : Fin 0 → Fin S64.rank)
  reducesTo_S64_S_d0 : S64.ReducesTo [0] S_
  bcast_S_S10x64 : S_.BroadcastsInDim S10x64 (![] : Fin 0 → Fin S10x64.rank)
  reducesTo_S10x64_S_d0_1 : S10x64.ReducesTo [0, 1] S_

variable [Facts]

def fn_part1 {F : FTy → Type} [FloatOps F] (main_arg4 : FVec F S10x64 .f32) (main_v13 : IVec S_ 1) (main_v16 : IVec S64 1) : IVec S_ 1 :=
  let main_c_5 : IVec S_ 1 := constantI S_ 1 1#1
  let main_v17 : IVec S_ 1 := (fun x v => Host.reduce IntOp.andi x v reducesTo_S64_S_d0 h_S_) main_v16 main_c_5
  let main_v18 : IVec S_ 1 := andi main_v13 main_v17
  let main_v19 : FVec F S10x64 .f32 := Host.absf main_arg4
  let main_cst_6 : FVec F S_ .f32 := constant S_ .f32 0x7F800000#32
  let main_v20 : FVec F S10x64 .f32 := broadcastInDim S10x64 ![] bcast_S_S10x64 main_cst_6
  let main_v21 : IVec S10x64 1 := cmpf .olt main_v19 main_v20
  let main_c_7 : IVec S_ 1 := constantI S_ 1 1#1
  let main_v22 : IVec S_ 1 := (fun x v => Host.reduce IntOp.andi x v reducesTo_S10x64_S_d0_1 h_S_) main_v21 main_c_7
  let main_v23 : IVec S_ 1 := andi main_v18 main_v22
  main_v23

def fn {F : FTy → Type} [FloatOps F] (main_arg0 : FVec F S10000x128 .f32) (main_arg1 : FVec F S10000x10000 .f32) (main_arg2 : FVec F S128x64 .f32) (main_arg3 : FVec F S64 .f32) (main_arg4 : FVec F S10x64 .f32) : IVec S_ 1 :=
  let main_v0 : FVec F S10000x128 .f32 := Host.absf main_arg0
  let main_cst : FVec F S_ .f32 := constant S_ .f32 0x7F800000#32
  let main_v1 : FVec F S10000x128 .f32 := broadcastInDim S10000x128 ![] bcast_S_S10000x128 main_cst
  let main_v2 : IVec S10000x128 1 := cmpf .olt main_v0 main_v1
  let main_c : IVec S_ 1 := constantI S_ 1 1#1
  let main_v3 : IVec S_ 1 := (fun x v => Host.reduce IntOp.andi x v reducesTo_S10000x128_S_d0_1 h_S_) main_v2 main_c
  let main_v4 : FVec F S10000x10000 .f32 := Host.absf main_arg1
  let main_cst_0 : FVec F S_ .f32 := constant S_ .f32 0x7F800000#32
  let main_v5 : FVec F S10000x10000 .f32 := broadcastInDim S10000x10000 ![] bcast_S_S10000x10000 main_cst_0
  let main_v6 : IVec S10000x10000 1 := cmpf .olt main_v4 main_v5
  let main_c_1 : IVec S_ 1 := constantI S_ 1 1#1
  let main_v7 : IVec S_ 1 := (fun x v => Host.reduce IntOp.andi x v reducesTo_S10000x10000_S_d0_1 h_S_) main_v6 main_c_1
  let main_v8 : IVec S_ 1 := andi main_v3 main_v7
  let main_v9 : FVec F S128x64 .f32 := Host.absf main_arg2
  let main_cst_2 : FVec F S_ .f32 := constant S_ .f32 0x7F800000#32
  let main_v10 : FVec F S128x64 .f32 := broadcastInDim S128x64 ![] bcast_S_S128x64 main_cst_2
  let main_v11 : IVec S128x64 1 := cmpf .olt main_v9 main_v10
  let main_c_3 : IVec S_ 1 := constantI S_ 1 1#1
  let main_v12 : IVec S_ 1 := (fun x v => Host.reduce IntOp.andi x v reducesTo_S128x64_S_d0_1 h_S_) main_v11 main_c_3
  let main_v13 : IVec S_ 1 := andi main_v8 main_v12
  let main_v14 : FVec F S64 .f32 := Host.absf main_arg3
  let main_cst_4 : FVec F S_ .f32 := constant S_ .f32 0x7F800000#32
  let main_v15 : FVec F S64 .f32 := broadcastInDim S64 ![] bcast_S_S64 main_cst_4
  let main_v16 : IVec S64 1 := cmpf .olt main_v14 main_v15
  fn_part1 (F := F) main_arg4 main_v13 main_v16
-- ==== Kernel.lean ====
abbrev S10000x128 : Shape := ⟨2, ![10000, 128]⟩
abbrev S10000x10000 : Shape := ⟨2, ![10000, 10000]⟩
abbrev S128x64 : Shape := ⟨2, ![128, 64]⟩
abbrev S64 : Shape := ⟨1, ![64]⟩
abbrev S10x64 : Shape := ⟨2, ![10, 64]⟩
abbrev S1x64 : Shape := ⟨2, ![1, 64]⟩
abbrev S400x10000 : Shape := ⟨2, ![400, 10000]⟩
abbrev S400x128 : Shape := ⟨2, ![400, 128]⟩
abbrev S10000x64 : Shape := ⟨2, ![10000, 64]⟩
abbrev S400x64 : Shape := ⟨2, ![400, 64]⟩
abbrev S400 : Shape := ⟨1, ![400]⟩
abbrev S400x1 : Shape := ⟨2, ![400, 1]⟩
abbrev S10 : Shape := ⟨1, ![10]⟩
abbrev S1x10 : Shape := ⟨2, ![1, 10]⟩
abbrev S400x10 : Shape := ⟨2, ![400, 10]⟩
abbrev S400x54 : Shape := ⟨2, ![400, 54]⟩
abbrev S10000x10 : Shape := ⟨2, ![10000, 10]⟩

abbrev nBuf : Space → Nat
  | .hbm => 9
  | .vmem => 9
  | .smem => 0
  | _ => 0

abbrev bufTy : (tb : Table) → Fin (tcTables nBuf tb) → BufTy
  | .hbm, ⟨0, _⟩ => ⟨S10000x128, .f32⟩
  | .hbm, ⟨1, _⟩ => ⟨S10000x10000, .f32⟩
  | .hbm, ⟨2, _⟩ => ⟨S128x64, .f32⟩
  | .hbm, ⟨3, _⟩ => ⟨S64, .f32⟩
  | .hbm, ⟨4, _⟩ => ⟨S10x64, .f32⟩
  | .hbm, ⟨5, _⟩ => ⟨S1x64, .f32⟩
  | .hbm, ⟨6, _⟩ => ⟨S10000x128, .f32⟩
  | .hbm, ⟨7, _⟩ => ⟨S10000x64, .f32⟩
  | .hbm, ⟨8, _⟩ => ⟨S10000x10, .f32⟩
  | .local _ .vmem, ⟨0, _⟩ => ⟨S10000x128, .f32⟩
  | .local _ .vmem, ⟨1, _⟩ => ⟨S400x10000, .f32⟩
  | .local _ .vmem, ⟨2, _⟩ => ⟨S400x10000, .f32⟩
  | .local _ .vmem, ⟨3, _⟩ => ⟨S128x64, .f32⟩
  | .local _ .vmem, ⟨4, _⟩ => ⟨S1x64, .f32⟩
  | .local _ .vmem, ⟨5, _⟩ => ⟨S10x64, .f32⟩
  | .local _ .vmem, ⟨6, _⟩ => ⟨S400x128, .f32⟩
  | .local _ .vmem, ⟨7, _⟩ => ⟨S400x128, .f32⟩
  | .local _ .vmem, ⟨8, _⟩ => ⟨S10000x64, .f32⟩
  | _, _ => ⟨S10000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg5_1 : Ref sig .tc := ⟨.vmem, 7, rfl⟩
abbrev cc0_scratch0 : Ref sig .tc := ⟨.vmem, 8, rfl⟩
abbrev cc0_sem0_0 : DmaSem sig := 0
abbrev cc0_sem1_0 : DmaSem sig := 1
abbrev cc0_sem1_1 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem5_1 : DmaSem sig := 7

abbrev nD : Nat := 1
abbrev τ : Topo := Topo.v7x

variable {F : FTy → Type} [FloatOps F]

abbrev grid0 : Pipeline.Grid := ⟨1, ![25], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S10000x128 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 2 → Memref sig .tc .vmem S400x10000 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S128x64 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x64 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S10x64 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S400x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

class Facts₀ : Prop where
  shapeCasts_S64_S1x64 : S64.ShapeCasts S1x64
  inb_S10000x128_S10000x128_0_0 : ∀ a, (![0, 0] : Fin 2 → Nat) a + S10000x128.size a ≤ S10000x128.size a
  h_S10000x128 : 0 < S10000x128.numel
  inb_S128x64_S128x64_0_0 : ∀ a, (![0, 0] : Fin 2 → Nat) a + S128x64.size a ≤ S128x64.size a
  h_S128x64 : 0 < S128x64.numel
  inb_S10000x64_S10000x64_0_0 : ∀ a, (![0, 0] : Fin 2 → Nat) a + S10000x64.size a ≤ S10000x64.size a
  h_S10000x64 : 0 < S10000x64.numel
  shapeCasts_S10000x64_S10000x64 : S10000x64.ShapeCasts S10000x64
  inb_S400x10000_S400x10000_0_0 : ∀ a, (![0, 0] : Fin 2 → Nat) a + S400x10000.size a ≤ S400x10000.size a
  h_S400x10000 : 0 < S400x10000.numel
  inb_S1x64_S1x64_0_0 : ∀ a, (![0, 0] : Fin 2 → Nat) a + S1x64.size a ≤ S1x64.size a
  h_S1x64 : 0 < S1x64.numel
  shapeCasts_S1x64_S1x64 : S1x64.ShapeCasts S1x64
  broadcasts_S1x64_S400x64 : S1x64.Broadcasts S400x64
  inb_S10x64_S10x64_0_0 : ∀ a, (![0, 0] : Fin 2 → Nat) a + S10x64.size a ≤ S10x64.size a
  h_S10x64 : 0 < S10x64.numel
  reduces_S400x64_S400 : S400x64.Reduces [1] S400
  shapeCasts_S400_S400x1 : S400.ShapeCasts S400x1
  reduces_S10x64_S10 : S10x64.Reduces [1] S10
  shapeCasts_S10_S1x10 : S10.ShapeCasts S1x10
  broadcasts_S400x1_S400x10 : S400x1.Broadcasts S400x10
  broadcasts_S1x10_S400x10 : S1x10.Broadcasts S400x10
  reduces_S400x10_S400 : S400x10.Reduces [1] S400
  concatenates_S400x64_S400x10_S400x54_S400x128_d1 : Shape.Concatenates [S400x64, S400x10, S400x54] S400x128 1
  inb_S400x128_S400x128_0_0 : ∀ a, (![0, 0] : Fin 2 → Nat) a + S400x128.size a ≤ S400x128.size a
  h_S400x128 : 0 < S400x128.numel
  slices_S10000x128_S10000x64_0_0 : S10000x128.Slices ![0, 0] S10000x64
  slices_S10000x128_S10000x10_0_64 : S10000x128.Slices ![0, 64] S10000x10
  dot_S10000x128_S128x64_S10000x64_1_0_0_1_n_n_wf : DotDims.WF S10000x128 S128x64 S10000x64 [1] [0] [0] [1] [] []
  dot_S400x10000_S10000x64_S400x64_1_0_0_1_n_n_wf : DotDims.WF S400x10000 S10000x64 S400x64 [1] [0] [0] [1] [] []
  dot_S400x64_S10x64_S400x10_1_1_0_0_n_n_wf : DotDims.WF S400x64 S10x64 S400x10 [1] [1] [0] [0] [] []
  hrank0 : 0 < grid0.rank
  hstage0_0 : ∀ j, (stage0_0 j).IsWhole
  nbuf0_0 : grid0.bufCount reads0_0 true = 1
  hreads0_0 : ∀ i i' : grid0.Coords, (∀ a, reads0_0 a = true → i a = i' a) → cc0_transform_0 i = cc0_transform_0 i'
  hinb0_0 : ∀ (i : grid0.Coords) a, (cc0_transform_0 i a + 1) * S10000x128.size a ≤ S10000x128.size a
  hwx0_0 : ∀ i : grid0.Coords, EltTy.bits .f32 = 32 ∨ (Rect.block (s := S10000x128) S10000x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S400x10000.size a ≤ S10000x10000.size a
  hwx0_1 : ∀ i : grid0.Coords, EltTy.bits .f32 = 32 ∨ (Rect.block (s := S10000x10000) S400x10000.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S128x64.size a ≤ S128x64.size a
  hwx0_2 : ∀ i : grid0.Coords, EltTy.bits .f32 = 32 ∨ (Rect.block (s := S128x64) S128x64.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1x64.size a ≤ S1x64.size a
  hwx0_3 : ∀ i : grid0.Coords, EltTy.bits .f32 = 32 ∨ (Rect.block (s := S1x64) S1x64.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S10x64.size a ≤ S10x64.size a
  hwx0_4 : ∀ i : grid0.Coords, EltTy.bits .f32 = 32 ∨ (Rect.block (s := S10x64) S10x64.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S400x128.size a ≤ S10000x128.size a
  hwx0_5 : ∀ i : grid0.Coords, EltTy.bits .f32 = 32 ∨ (Rect.block (s := S10000x128) S400x128.size (cc0_transform_5 i) (hinb0_5 i)).WholeWords (EltTy.packing .f32)

variable [Facts₀]

def dot_S10000x128_S128x64_S10000x64_1_0_0_1_n_n : DotDims S10000x128 S128x64 S10000x64 where
  lhsContracting := [1]
  rhsContracting := [0]
  lhsNonContracting := [0]
  rhsNonContracting := [1]
  lhsBatch := []
  rhsBatch := []
  wf := dot_S10000x128_S128x64_S10000x64_1_0_0_1_n_n_wf
def dot_S400x10000_S10000x64_S400x64_1_0_0_1_n_n : DotDims S400x10000 S10000x64 S400x64 where
  lhsContracting := [1]
  rhsContracting := [0]
  lhsNonContracting := [0]
  rhsNonContracting := [1]
  lhsBatch := []
  rhsBatch := []
  wf := dot_S400x10000_S10000x64_S400x64_1_0_0_1_n_n_wf
def dot_S400x64_S10x64_S400x10_1_1_0_0_n_n : DotDims S400x64 S10x64 S400x10 where
  lhsContracting := [1]
  rhsContracting := [1]
  lhsNonContracting := [0]
  rhsNonContracting := [0]
  lhsBatch := []
  rhsBatch := []
  wf := dot_S400x64_S10x64_S400x10_1_1_0_0_n_n_wf

abbrev win0_0 : Pipeline.Window sig grid0 :=
  Pipeline.Window.ofSpec (Memref.whole main_arg0) S10000x128.size cc0_transform_0 reads0_0 false true 1 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S400x10000.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S128x64.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v0) S1x64.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_arg4) S10x64.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v1) S400x128.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

class Facts : Prop extends Facts₀ where

variable [Facts]
-- ==== ReferenceIdeal.lean ====
abbrev S10000x128 : Shape := ⟨2, ![10000, 128]⟩
abbrev S10000x10000 : Shape := ⟨2, ![10000, 10000]⟩
abbrev S128x64 : Shape := ⟨2, ![128, 64]⟩
abbrev S64 : Shape := ⟨1, ![64]⟩
abbrev S10x64 : Shape := ⟨2, ![10, 64]⟩
abbrev S10000x64 : Shape := ⟨2, ![10000, 64]⟩
abbrev S1x64 : Shape := ⟨2, ![1, 64]⟩
abbrev S10000x1x64 : Shape := ⟨3, ![10000, 1, 64]⟩
abbrev S1x10x64 : Shape := ⟨3, ![1, 10, 64]⟩
abbrev S10000x10x64 : Shape := ⟨3, ![10000, 10, 64]⟩
abbrev S_ : Shape := ⟨0, ![]⟩
abbrev S10000x10 : Shape := ⟨2, ![10000, 10]⟩
abbrev S10000 : Shape := ⟨1, ![10000]⟩
abbrev S10000x1 : Shape := ⟨2, ![10000, 1]⟩

abbrev nBuf : Space → Nat
  | .hbm => 38
  | .vmem => 0
  | .smem => 0
  | _ => 0

abbrev bufTy : (tb : Table) → Fin (tcTables nBuf tb) → BufTy
  | .hbm, ⟨0, _⟩ => ⟨S10000x128, .f32⟩
  | .hbm, ⟨1, _⟩ => ⟨S10000x10000, .f32⟩
  | .hbm, ⟨2, _⟩ => ⟨S128x64, .f32⟩
  | .hbm, ⟨3, _⟩ => ⟨S64, .f32⟩
  | .hbm, ⟨4, _⟩ => ⟨S10x64, .f32⟩
  | .hbm, ⟨5, _⟩ => ⟨S10000x64, .f32⟩
  | .hbm, ⟨6, _⟩ => ⟨S10000x64, .f32⟩
  | .hbm, ⟨7, _⟩ => ⟨S1x64, .f32⟩
  | .hbm, ⟨8, _⟩ => ⟨S10000x64, .f32⟩
  | .hbm, ⟨9, _⟩ => ⟨S10000x64, .f32⟩
  | .hbm, ⟨10, _⟩ => ⟨S10000x1x64, .f32⟩
  | .hbm, ⟨11, _⟩ => ⟨S1x10x64, .f32⟩
  | .hbm, ⟨12, _⟩ => ⟨S10000x10x64, .f32⟩
  | .hbm, ⟨13, _⟩ => ⟨S10000x10x64, .f32⟩
  | .hbm, ⟨14, _⟩ => ⟨S10000x10x64, .f32⟩
  | .hbm, ⟨15, _⟩ => ⟨S10000x10x64, .f32⟩
  | .hbm, ⟨16, _⟩ => ⟨S_, .f32⟩
  | .hbm, ⟨17, _⟩ => ⟨S10000x10, .f32⟩
  | .hbm, ⟨18, _⟩ => ⟨S_, .f32⟩
  | .hbm, ⟨19, _⟩ => ⟨S10000x10, .f32⟩
  | .hbm, ⟨20, _⟩ => ⟨S10000x10, .f32⟩
  | .hbm, ⟨21, _⟩ => ⟨S_, .f32⟩
  | .hbm, ⟨22, _⟩ => ⟨S10000x10, .f32⟩
  | .hbm, ⟨23, _⟩ => ⟨S10000x10, .f32⟩
  | .hbm, ⟨24, _⟩ => ⟨S_, .f32⟩
  | .hbm, ⟨25, _⟩ => ⟨S10000x10, .f32⟩
  | .hbm, ⟨26, _⟩ => ⟨S10000x10, .f32⟩
  | .hbm, ⟨27, _⟩ => ⟨S_, .f32⟩
  | .hbm, ⟨28, _⟩ => ⟨S10000x10, .f32⟩
  | .hbm, ⟨29, _⟩ => ⟨S10000x10, .f32⟩
  | .hbm, ⟨30, _⟩ => ⟨S_, .f32⟩
  | .hbm, ⟨31, _⟩ => ⟨S10000x10, .f32⟩
  | .hbm, ⟨32, _⟩ => ⟨S10000x10, .f32⟩
  | .hbm, ⟨33, _⟩ => ⟨S_, .f32⟩
  | .hbm, ⟨34, _⟩ => ⟨S10000, .f32⟩
  | .hbm, ⟨35, _⟩ => ⟨S10000x1, .f32⟩
  | .hbm, ⟨36, _⟩ => ⟨S10000x10, .f32⟩
  | .hbm, ⟨37, _⟩ => ⟨S10000x10, .f32⟩
  | _, _ => ⟨S10000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_cst : Ref sig .tc := ⟨.hbm, 16, rfl⟩
abbrev main_v11 : Ref sig .tc := ⟨.hbm, 17, rfl⟩
abbrev main_cst_0 : Ref sig .tc := ⟨.hbm, 18, rfl⟩
abbrev main_v12 : Ref sig .tc := ⟨.hbm, 19, rfl⟩
abbrev main_v13 : Ref sig .tc := ⟨.hbm, 20, rfl⟩
abbrev main_cst_1 : Ref sig .tc := ⟨.hbm, 21, rfl⟩
abbrev main_v14 : Ref sig .tc := ⟨.hbm, 22, rfl⟩
abbrev main_v15 : Ref sig .tc := ⟨.hbm, 23, rfl⟩
abbrev main_cst_2 : Ref sig .tc := ⟨.hbm, 24, rfl⟩
abbrev main_v16 : Ref sig .tc := ⟨.hbm, 25, rfl⟩
abbrev main_v17 : Ref sig .tc := ⟨.hbm, 26, rfl⟩
abbrev main_cst_3 : Ref sig .tc := ⟨.hbm, 27, rfl⟩
abbrev main_v18 : Ref sig .tc := ⟨.hbm, 28, rfl⟩
abbrev main_v19 : Ref sig .tc := ⟨.hbm, 29, rfl⟩
abbrev main_cst_4 : Ref sig .tc := ⟨.hbm, 30, rfl⟩
abbrev main_v20 : Ref sig .tc := ⟨.hbm, 31, rfl⟩
abbrev main_v21 : Ref sig .tc := ⟨.hbm, 32, rfl⟩
abbrev main_cst_5 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩

abbrev nD : Nat := 1
abbrev τ : Topo := Topo.v7x

variable {F : FTy → Type} [FloatOps F]

class Facts₀ : Prop where
  bcast_S64_S1x64_1 : S64.BroadcastsInDim S1x64 (![1] : Fin 1 → Fin S1x64.rank)
  bcast_S1x64_S10000x64_0_1 : S1x64.BroadcastsInDim S10000x64 (![0, 1] : Fin 2 → Fin S10000x64.rank)
  bcast_S10000x64_S10000x1x64_0_2 : S10000x64.BroadcastsInDim S10000x1x64 (![0, 2] : Fin 2 → Fin S10000x1x64.rank)
  bcast_S10x64_S1x10x64_1_2 : S10x64.BroadcastsInDim S1x10x64 (![1, 2] : Fin 2 → Fin S1x10x64.rank)
  bcast_S10000x1x64_S10000x10x64_0_1_2 : S10000x1x64.BroadcastsInDim S10000x10x64 (![0, 1, 2] : Fin 3 → Fin S10000x10x64.rank)
  bcast_S1x10x64_S10000x10x64_0_1_2 : S1x10x64.BroadcastsInDim S10000x10x64 (![0, 1, 2] : Fin 3 → Fin S10000x10x64.rank)
  reducesTo_S10000x10x64_S10000x10_d2 : S10000x10x64.ReducesTo [2] S10000x10
  h_S_ : 0 < S_.numel
  bcast_S_S10000x10 : S_.BroadcastsInDim S10000x10 (![] : Fin 0 → Fin S10000x10.rank)
  reducesTo_S10000x10_S10000_d1 : S10000x10.ReducesTo [1] S10000
  bcast_S10000_S10000x1_0 : S10000.BroadcastsInDim S10000x1 (![0] : Fin 1 → Fin S10000x1.rank)
  bcast_S10000x1_S10000x10_0_1 : S10000x1.BroadcastsInDim S10000x10 (![0, 1] : Fin 2 → Fin S10000x10.rank)
  dot_S10000x128_S128x64_S10000x64_1_0_0_1_n_n_wf : DotDims.WF S10000x128 S128x64 S10000x64 [1] [0] [0] [1] [] []
  dot_S10000x10000_S10000x64_S10000x64_1_0_0_1_n_n_wf : DotDims.WF S10000x10000 S10000x64 S10000x64 [1] [0] [0] [1] [] []

variable [Facts₀]

def dot_S10000x128_S128x64_S10000x64_1_0_0_1_n_n : DotDims S10000x128 S128x64 S10000x64 where
  lhsContracting := [1]
  rhsContracting := [0]
  lhsNonContracting := [0]
  rhsNonContracting := [1]
  lhsBatch := []
  rhsBatch := []
  wf := dot_S10000x128_S128x64_S10000x64_1_0_0_1_n_n_wf
def dot_S10000x10000_S10000x64_S10000x64_1_0_0_1_n_n : DotDims S10000x10000 S10000x64 S10000x64 where
  lhsContracting := [1]
  rhsContracting := [0]
  lhsNonContracting := [0]
  rhsNonContracting := [1]
  lhsBatch := []
  rhsBatch := []
  wf := dot_S10000x10000_S10000x64_S10000x64_1_0_0_1_n_n_wf

class Facts : Prop extends Facts₀ where

variable [Facts]
-- ==== Proof.KernelPieces.lean ====
/-
  What the kernel's body leaves behind, read as values.

  At the first grid point the body stores the support `x · W` into its scratch and then uses it; at every later
  point it only reads the scratch.  So the scratch holds the support after every point, and the block a point
  writes back is the hidden layer of that point's 400 adjacency rows beside its soft assignment and a zero pad.
-/
import proofs.«160047_g75067438399519_cont_9to1c4b_260_25_alg».proof.Proof.Gen.KernelIdeal.Frame
import Idealize.ShloMosaic.Lib.Pipeline.Value
import Idealize.ShloMosaic.Lib.Tactic

noncomputable section

namespace Cert.KernelIdeal.PieceValue

open Idealize.ShloMosaic Idealize.ShloMosaic.TcCoe Idealize.SL.Sem Cert.KernelIdeal Cert.KernelIdeal.Gen

variable {F : FTy → Type} [FloatOps F] [Named F]

theorem hz : (![0, 0] : Fin 2 → Nat) = fun _ => 0 := funext fun a => by fin_cases a <;> rfl

/-! ## Each control case's stores as payloads of the loaded buffers -/

/-- At the first point the scratch ends at the support of the two whole operands. -/
theorem scratch_first (c : Dev nD) (i : grid0.Coords) (arg1 : Memref sig .tc .vmem S10000x128 .f32) (harg1 : arg1.IsWhole) (arg2 : Memref sig .tc .vmem S400x10000 .f32) (harg2 : arg2.IsWhole) (arg3 : Memref sig .tc .vmem S128x64 .f32) (harg3 : arg3.IsWhole) (arg4 : Memref sig .tc .vmem S1x64 .f32) (harg4 : arg4.IsWhole) (arg5 : Memref sig .tc .vmem S10x64 .f32) (harg5 : arg5.IsWhole) (arg6 : Memref sig .tc .vmem S400x128 .f32) (harg6 : arg6.IsWhole) (arg7 : Memref sig .tc .vmem S10000x64 .f32) (harg7 : arg7.IsWhole) (hc0 : cond0_0 i) (x0 : Vec F S10000x128 .f32) (x1 : Vec F S400x10000 .f32) (x2 : Vec F S128x64 .f32) (x3 : Vec F S1x64 .f32) (x4 : Vec F S10x64 .f32) :
    sout0_A_0 c i arg1 harg1 arg2 harg2 arg3 harg3 arg4 harg4 arg5 harg5 arg6 harg6 arg7 harg7 hc0 x0 x1 x2 x3 x4 = k0_pay2 x0 x2 := by
  unfold sout0_A_0
  rw [View.read_writes_eq_canon _ _ _ (scover0_A_0 c i arg1 harg1 arg2 harg2 arg3 harg3 arg4 harg4 arg5 harg5 arg6 harg6 arg7 harg7 hc0 x0 x1 x2 x3 x4)]
  unfold kernelRun0_A
  dsimp only
  sl_unfold_words
  rw [View.canon_unit_zero hz]
  simp only [View.readAt_eq_ld, harg1.read_unread, harg3.read_unread, View.ld_unit_zero (S := S10000x128) hz, View.ld_unit_zero (S := S128x64) hz]

/-- At the first point the output block is built from the support just stored (the scratch is read back after the store). -/
theorem block_first (c : Dev nD) (i : grid0.Coords) (arg1 : Memref sig .tc .vmem S10000x128 .f32) (harg1 : arg1.IsWhole) (arg2 : Memref sig .tc .vmem S400x10000 .f32) (harg2 : arg2.IsWhole) (arg3 : Memref sig .tc .vmem S128x64 .f32) (harg3 : arg3.IsWhole) (arg4 : Memref sig .tc .vmem S1x64 .f32) (harg4 : arg4.IsWhole) (arg5 : Memref sig .tc .vmem S10x64 .f32) (harg5 : arg5.IsWhole) (arg6 : Memref sig .tc .vmem S400x128 .f32) (harg6 : arg6.IsWhole) (arg7 : Memref sig .tc .vmem S10000x64 .f32) (harg7 : arg7.IsWhole) (hc0 : cond0_0 i) (x0 : Vec F S10000x128 .f32) (x1 : Vec F S400x10000 .f32) (x2 : Vec F S128x64 .f32) (x3 : Vec F S1x64 .f32) (x4 : Vec F S10x64 .f32) :
    out0_A_5 c i arg1 harg1 arg2 harg2 arg3 harg3 arg4 harg4 arg5 harg5 arg6 harg6 arg7 harg7 hc0 x0 x1 x2 x3 x4
      = k0_pay1 (k0_pay3 x1 (k0_pay2 x0 x2) x3) (k0_pay4 x1 (k0_pay2 x0 x2) x3 x4) := by
  unfold out0_A_5
  rw [View.read_writes_eq_canon _ _ _ (cover0_A_5 c i arg1 harg1 arg2 harg2 arg3 harg3 arg4 harg4 arg5 harg5 arg6 harg6 arg7 harg7 hc0 x0 x1 x2 x3 x4)]
  unfold kernelRun0_A
  dsimp only
  sl_unfold_words
  rw [View.canon_unit_zero hz]
  simp only [View.readAt_eq_ld, harg1.read_unread, harg2.read_unread, harg3.read_unread, harg4.read_unread, harg5.read_unread,
    View.ld_unit_zero (S := S10000x128) hz, View.ld_unit_zero (S := S128x64) hz, View.ld_unit_zero (S := S400x10000) hz,
    View.ld_unit_zero (S := S1x64) hz, View.ld_unit_zero (S := S10x64) hz, View.readCov_unit_zero (S := S10000x64) _ hz]

/-- At a later point the output block is built from what the scratch already holds. -/
theorem block_later (c : Dev nD) (i : grid0.Coords) (arg1 : Memref sig .tc .vmem S10000x128 .f32) (harg1 : arg1.IsWhole) (arg2 : Memref sig .tc .vmem S400x10000 .f32) (harg2 : arg2.IsWhole) (arg3 : Memref sig .tc .vmem S128x64 .f32) (harg3 : arg3.IsWhole) (arg4 : Memref sig .tc .vmem S1x64 .f32) (harg4 : arg4.IsWhole) (arg5 : Memref sig .tc .vmem S10x64 .f32) (harg5 : arg5.IsWhole) (arg6 : Memref sig .tc .vmem S400x128 .f32) (harg6 : arg6.IsWhole) (arg7 : Memref sig .tc .vmem S10000x64 .f32) (harg7 : arg7.IsWhole) (hc0 : ¬cond0_0 i) (x0 : Vec F S10000x128 .f32) (x1 : Vec F S400x10000 .f32) (x2 : Vec F S128x64 .f32) (x3 : Vec F S1x64 .f32) (x4 : Vec F S10x64 .f32) (xs0 : Vec F S10000x64 .f32) :
    out0_B_5 c i arg1 harg1 arg2 harg2 arg3 harg3 arg4 harg4 arg5 harg5 arg6 harg6 arg7 harg7 hc0 x0 x1 x2 x3 x4 xs0 = k0_pay1 (k0_pay3 x1 xs0 x3) (k0_pay4 x1 xs0 x3 x4) := by
  unfold out0_B_5
  rw [View.read_writes_eq_canon _ _ _ (cover0_B_5 c i arg1 harg1 arg2 harg2 arg3 harg3 arg4 harg4 arg5 harg5 arg6 harg6 arg7 harg7 hc0 x0 x1 x2 x3 x4 xs0)]
  unfold kernelRun0_B
  dsimp only
  sl_unfold_words
  rw [View.canon_unit_zero hz]
  simp only [View.readAt_eq_ld, harg2.read_unread, harg4.read_unread, harg5.read_unread, harg7.read_unread,
    View.ld_unit_zero (S := S400x10000) hz, View.ld_unit_zero (S := S10000x64) hz,
    View.ld_unit_zero (S := S1x64) hz, View.ld_unit_zero (S := S10x64) hz]

/-! ## The arrays and blocks, named at their literal types -/

variable (m : (ℓ : Loc nD τ sig) → Buf (Elt F) ℓ)

/-- The features, the weights, the bias as one row, the centres: the four operands every point sees whole. -/
abbrev xArr (c : Dev nD) : Vec F S10000x128 .f32 := V m c main_arg0
abbrev wArr (c : Dev nD) : Vec F S128x64 .f32 := V m c main_arg2
abbrev bRow (c : Dev nD) : Vec F S1x64 .f32 := V m c main_v0
abbrev muArr (c : Dev nD) : Vec F S10x64 .f32 := V m c main_arg4
/-- The 400 adjacency rows of point `t`. -/
abbrev adjBlk (c : Dev nD) (t : Fin cfg0.N) : Vec F S400x10000 .f32 := iblk m c 1 t

/-- The block index of the four whole operands never moves. -/
theorem whole_idx : ∀ t : Fin cfg0.N, win0_0.index t (0 : Fin 2) = 0 ∧ win0_0.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0 :=
  (by decide +kernel : ∀ t : Fin grid0.N, _)

/-- So each of their blocks is the whole array. -/
theorem blk0_eq (c : Dev nD) (t : Fin cfg0.N) : (iblk m c 0 t : Vec F S10000x128 .f32) = xArr m c := by
  obtain ⟨e0, e1, -⟩ := whole_idx t
  funext y
  unfold iblk
  rw [View.read_apply]
  show V m c main_arg0 _ = V m c main_arg0 y
  congr 1
  funext a; apply Fin.ext
  match a with
  | ⟨0, _⟩ => show win0_0.index t (0 : Fin 2) * 10000 + 1 * (y 0).val = (y 0).val; omega
  | ⟨1, _⟩ => show win0_0.index t (1 : Fin 2) * 128 + 1 * (y 1).val = (y 1).val; omega

theorem blk2_eq (c : Dev nD) (t : Fin cfg0.N) : (iblk m c 2 t : Vec F S128x64 .f32) = wArr m c := by
  obtain ⟨-, -, e0, e1, -⟩ := whole_idx t
  funext y
  unfold iblk
  rw [View.read_apply]
  show V m c main_arg2 _ = V m c main_arg2 y
  congr 1
  funext a; apply Fin.ext
  match a with
  | ⟨0, _⟩ => show win0_2.index t (0 : Fin 2) * 128 + 1 * (y 0).val = (y 0).val; omega
  | ⟨1, _⟩ => show win0_2.index t (1 : Fin 2) * 64 + 1 * (y 1).val = (y 1).val; omega

theorem blk3_eq (c : Dev nD) (t : Fin cfg0.N) : (iblk m c 3 t : Vec F S1x64 .f32) = bRow m c := by
  obtain ⟨-, -, -, -, e0, e1, -⟩ := whole_idx t
  funext y
  unfold iblk
  rw [View.read_apply]
  show V m c main_v0 _ = V m c main_v0 y
  congr 1
  funext a; apply Fin.ext
  match a with
  | ⟨0, _⟩ => show win0_3.index t (0 : Fin 2) * 1 + 1 * (y 0).val = (y 0).val; omega
  | ⟨1, _⟩ => show win0_3.index t (1 : Fin 2) * 64 + 1 * (y 1).val = (y 1).val; omega

theorem blk4_eq (c : Dev nD) (t : Fin cfg0.N) : (iblk m c 4 t : Vec F S10x64 .f32) = muArr m c := by
  obtain ⟨-, -, -, -, -, -, e0, e1⟩ := whole_idx t
  funext y
  unfold iblk
  rw [View.read_apply]
  show V m c main_arg4 _ = V m c main_arg4 y
  congr 1
  funext a; apply Fin.ext
  match a with
  | ⟨0, _⟩ => show win0_4.index t (0 : Fin 2) * 10 + 1 * (y 0).val = (y 0).val; omega
  | ⟨1, _⟩ => show win0_4.index t (1 : Fin 2) * 64 + 1 * (y 1).val = (y 1).val; omega

/-! ## The scratch holds the support after every point -/

/-- The support of the whole feature and weight arrays. -/
abbrev supArr (c : Dev nD) : Vec F S10000x64 .f32 := k0_pay2 (xArr m c) (wArr m c)

theorem scratch_eq (c : Dev nD) : ∀ (n : ℕ) (h : n < cfg0.N), (outsAt0 m c n h).2 = supArr m c
  | 0, h => by
    rw [outsAt0_A m c ⟨0, h⟩ rfl]
    dsimp only
    rw [scratch_first, blk0_eq, blk2_eq]
  | n + 1, h => by
    have hN : cfg0.N = 25 := N_0
    have hB : ¬(⟨n + 1, h⟩ : Fin cfg0.N).val % 25 = 0 := by dsimp only; omega
    rw [outsAt0_B m c ⟨n + 1, h⟩ hB]
    dsimp only
    unfold sout0_B_0
    exact scratch_eq c n (Nat.lt_of_succ_lt h)

/-! ## What each point leaves in the output's staging buffer -/

/-- The block of point `t`: the hidden layer of its adjacency rows, their soft assignment, the zero pad. -/
abbrev blockAt (c : Dev nD) (t : Fin cfg0.N) : Vec F S400x128 .f32 :=
  k0_pay1 (k0_pay3 (adjBlk m c t) (supArr m c) (bRow m c)) (k0_pay4 (adjBlk m c t) (supArr m c) (bRow m c) (muArr m c))

theorem block_eq (c : Dev nD) (t : Fin cfg0.N) : (outsAt0 m c t.val t.isLt).1 = blockAt m c t := by
  by_cases h0 : t.val % 25 = 0
  · rw [outsAt0_A m c t h0]
    dsimp only
    rw [block_first, blk0_eq, blk2_eq, blk3_eq, blk4_eq]
  · rw [outsAt0_B m c t h0]
    dsimp only
    rw [block_later, scratch_eq, blk3_eq, blk4_eq]

end Cert.KernelIdeal.PieceValue

end
-- ==== Proof.Spec.lean ====
/-
  The mathematics both programs compute, written once over plain index functions on the extended reals.

  A graph-convolution layer followed by a Student-t soft assignment:
    support  S[n,k] = Σ_f x[n,f] · W[f,k]
    hidden   H[r,k] = (Σ_n adj[r,n] · S[n,k]) + b[k]
    assign   Q[r,j] = w[r,j] / Σ_j' w[r,j'],  w[r,j] = (1 + ‖H[r,·] − mu[j,·]‖² / α + ε)^(−c).

  The two programs spell the weight `w` differently.  One expands the squared distance as
  ‖o‖² − 2·⟨o, mu_j⟩ + ‖mu_j‖², multiplies it by a constant κ standing for 1/α, and raises to the power
  through exp(−c · log ·).  The other sums the squared differences, divides by α, takes the reciprocal and
  raises it to the power c.  Over real entries, with κ the exact reciprocal of the word α, the two are the
  same number: the square expands, 1/α·d = d/α, and (1/B)^c = exp(−c·log B) for B > 0.
-/
import Idealize.ShloMosaic.PureOps.Ideal
import Idealize.ShloMosaic.Lib.ValueIdx
import Mathlib.Analysis.SpecialFunctions.Pow.Real
import Mathlib.Data.EReal.Basic

noncomputable section

namespace Cert.GcnDec

open Idealize.ShloMosaic Idealize.ShloMosaic.ValueIdx

/-! ## Shapes of the five inputs and the two results -/

abbrev SX : Shape := ⟨2, ![10000, 128]⟩
abbrev SA : Shape := ⟨2, ![10000, 10000]⟩
abbrev SW : Shape := ⟨2, ![128, 64]⟩
abbrev SB : Shape := ⟨1, ![64]⟩
abbrev SM : Shape := ⟨2, ![10, 64]⟩

/-! ## The graph-convolution layer -/

/-- `S[n,k] = Σ_f x[n,f] · W[f,k]`. -/
def support (x : SX.Idx → EReal) (W : SW.Idx → EReal) (n : Fin 10000) (k : Fin 64) : EReal :=
  ∑ f : Fin 128, x (ix2 n f) * W (ix2 f k)

/-- `H[r,k] = (Σ_n adj[r,n] · S[n,k]) + b[k]`. -/
def hidden (x : SX.Idx → EReal) (adj : SA.Idx → EReal) (W : SW.Idx → EReal) (b : SB.Idx → EReal)
    (r : Fin 10000) (k : Fin 64) : EReal :=
  (∑ n : Fin 10000, adj (ix2 r n) * support x W n k) + b (ix1 k)

/-! ## The soft assignment, in the expanded spelling (one row `o` of the hidden layer against the centres) -/

/-- `‖o‖² − 2·⟨o, mu_j⟩ + ‖mu_j‖²`, the constant 2 as its f32 word. -/
def sqDistExpanded (o : Fin 64 → EReal) (mu : SM.Idx → EReal) (j : Fin 10) : EReal :=
  ((∑ k : Fin 64, o k * o k) - Ideal.ofBits .f32 0x40000000#32 * (∑ k : Fin 64, o k * mu (ix2 j k)))
    + (∑ k : Fin 64, mu (ix2 j k) * mu (ix2 j k))

/-- `1 + d·κ + ε`. -/
def baseExpanded (κ : EReal) (o : Fin 64 → EReal) (mu : SM.Idx → EReal) (j : Fin 10) : EReal :=
  (Ideal.ofBits .f32 0x3F800000#32 + sqDistExpanded o mu j * κ) + Ideal.ofBits .f32 0x322BCC77#32

/-- `exp(−c · log(1 + d·κ + ε))`. -/
def weightExpanded (κ : EReal) (o : Fin 64 → EReal) (mu : SM.Idx → EReal) (j : Fin 10) : EReal :=
  Ideal.exp (Ideal.ofBits .f32 0xBF19999A#32 * Ideal.log (baseExpanded κ o mu j))

/-- The weight normalised over the centres. -/
def assignExpanded (κ : EReal) (o : Fin 64 → EReal) (mu : SM.Idx → EReal) (j : Fin 10) : EReal :=
  Ideal.div (weightExpanded κ o mu j) (∑ j' : Fin 10, weightExpanded κ o mu j')

/-! ## The soft assignment, in the direct spelling -/

/-- `0 + Σ_k (o_k − mu[j,k])²`. -/
def sqDist (o : Fin 64 → EReal) (mu : SM.Idx → EReal) (j : Fin 10) : EReal :=
  Ideal.ofBits .f32 0x00000000#32 + ∑ k : Fin 64, (o k - mu (ix2 j k)) * (o k - mu (ix2 j k))

/-- `1 + d/α + ε`. -/
def baseDirect (o : Fin 64 → EReal) (mu : SM.Idx → EReal) (j : Fin 10) : EReal :=
  (Ideal.ofBits .f32 0x3F800000#32 + Ideal.div (sqDist o mu j) (Ideal.ofBits .f32 0x3E4CCCCD#32))
    + Ideal.ofBits .f32 0x322BCC77#32

/-- `(1 / (1 + d/α + ε))^c`. -/
def weightDirect (o : Fin 64 → EReal) (mu : SM.Idx → EReal) (j : Fin 10) : EReal :=
  Ideal.pow (Ideal.div (Ideal.ofBits .f32 0x3F800000#32) (baseDirect o mu j)) (Ideal.ofBits .f32 0x3F19999A#32)

/-- The weight normalised over the centres (the sum started from the word zero). -/
def assignDirect (o : Fin 64 → EReal) (mu : SM.Idx → EReal) (j : Fin 10) : EReal :=
  Ideal.div (weightDirect o mu j) (Ideal.ofBits .f32 0x00000000#32 + ∑ j' : Fin 10, weightDirect o mu j')

end Cert.GcnDec

end
-- ==== Proof.PayloadLayer.lean ====
import proofs.«160047_g75067438399519_cont_9to1c4b_260_25_alg».proof.Proof.Gen.KernelIdeal.Skeleton
import proofs.«160047_g75067438399519_cont_9to1c4b_260_25_alg».proof.Proof.Spec
import Idealize.ShloMosaic.Lib.ValueIdx
import Idealize.ShloMosaic.Lib.ValueLayout
import Idealize.ShloMosaic.Lib.Pipeline.Value
import Idealize.ShloMosaic.PureOps.Ideal.Laws

noncomputable section

namespace Cert.KernelIdeal.PayloadValue

open Idealize.ShloMosaic Idealize.ShloMosaic.ValueIdx Cert.KernelIdeal Cert.KernelIdeal.Gen

/-! The support product's operand indices, one axis at a time: the left operand keeps the result's row and takes the
    contraction coordinate as its column; the right operand takes the contraction coordinate as its row and keeps the
    result's column. -/
theorem sup_lhs_0 (i : S10000x64.Idx) (q : dot_S10000x128_S128x64_S10000x64_1_0_0_1_n_n.contr.Idx) :
    (dot_S10000x128_S128x64_S10000x64_1_0_0_1_n_n.lhsIdx i q 0).val = (i 0).val := by
  unfold DotDims.lhsIdx
  rw [dif_neg (show ¬(0 : Fin S10000x128.rank) ∈ dot_S10000x128_S128x64_S10000x64_1_0_0_1_n_n.lhsBatch by decide), dif_pos (show (0 : Fin S10000x128.rank) ∈ dot_S10000x128_S128x64_S10000x64_1_0_0_1_n_n.lhsNonContracting by decide)]
  rfl
theorem sup_lhs_1 (i : S10000x64.Idx) (q : dot_S10000x128_S128x64_S10000x64_1_0_0_1_n_n.contr.Idx) :
    (dot_S10000x128_S128x64_S10000x64_1_0_0_1_n_n.lhsIdx i q 1).val = (q ⟨0, by decide⟩).val :=
  dot_S10000x128_S128x64_S10000x64_1_0_0_1_n_n.lhsIdx_val_of_single rfl i q
theorem sup_rhs_0 (i : S10000x64.Idx) (q : dot_S10000x128_S128x64_S10000x64_1_0_0_1_n_n.contr.Idx) :
    (dot_S10000x128_S128x64_S10000x64_1_0_0_1_n_n.rhsIdx i q 0).val = (q ⟨0, by decide⟩).val :=
  dot_S10000x128_S128x64_S10000x64_1_0_0_1_n_n.rhsIdx_val_of_single rfl i q
theorem sup_rhs_1 (i : S10000x64.Idx) (q : dot_S10000x128_S128x64_S10000x64_1_0_0_1_n_n.contr.Idx) :
    (dot_S10000x128_S128x64_S10000x64_1_0_0_1_n_n.rhsIdx i q 1).val = (i 1).val := by
  unfold DotDims.rhsIdx
  rw [dif_neg (show ¬(1 : Fin S128x64.rank) ∈ dot_S10000x128_S128x64_S10000x64_1_0_0_1_n_n.rhsBatch by decide), dif_pos (show (1 : Fin S128x64.rank) ∈ dot_S10000x128_S128x64_S10000x64_1_0_0_1_n_n.rhsNonContracting by decide)]
  rfl

/-- The support payload at an entry: the matrix product of the two whole operands into a zero accumulator. -/
theorem pay2_apply (x : Vec Ideal S10000x128 .f32) (W : Vec Ideal S128x64 .f32) (n : Fin 10000) (k : Fin 64) :
    k0_pay2 (F := Ideal) x W (ix2 n k) = ∑ f : Fin 128, x (ix2 n f) * W (ix2 f k) := by
  unfold k0_pay2
  simp only [matmul]
  -- the cast keeps the shape; into the zero accumulator the product is the bare sum over the contraction index,
  -- which has one axis of extent 128 and is re-indexed by its coordinate
  rw [shapeCast_self]
  rw [Ideal.matmul_constant_zero_apply, ← Equiv.sum_comp (contrEquiv1 dot_S10000x128_S128x64_S10000x64_1_0_0_1_n_n 128 rfl rfl).symm]
  refine Finset.sum_congr rfl fun f _ => ?_
  have hf := contrEquiv1_symm_val dot_S10000x128_S128x64_S10000x64_1_0_0_1_n_n 128 rfl rfl f
  have el : dot_S10000x128_S128x64_S10000x64_1_0_0_1_n_n.lhsIdx (ix2 n k) ((contrEquiv1 dot_S10000x128_S128x64_S10000x64_1_0_0_1_n_n 128 rfl rfl).symm f) = ix2 n f := funext fun a => Fin.ext (by
    match a with
    | ⟨0, _⟩ => exact sup_lhs_0 _ _
    | ⟨1, _⟩ => exact (sup_lhs_1 _ _).trans hf)
  have er : dot_S10000x128_S128x64_S10000x64_1_0_0_1_n_n.rhsIdx (ix2 n k) ((contrEquiv1 dot_S10000x128_S128x64_S10000x64_1_0_0_1_n_n 128 rfl rfl).symm f) = ix2 f k := funext fun a => Fin.ext (by
    match a with
    | ⟨0, _⟩ => exact (sup_rhs_0 _ _).trans hf
    | ⟨1, _⟩ => exact sup_rhs_1 _ _)
  rw [el, er]

/-! The hidden-layer product's operand indices (the adjacency block against the support), one axis at a time, with
    the same pattern: the left operand keeps the result's row and takes the contraction coordinate as its column; the
    right operand takes the contraction coordinate as its row and keeps the result's column. -/
theorem hid_lhs_0 (i : S400x64.Idx) (q : dot_S400x10000_S10000x64_S400x64_1_0_0_1_n_n.contr.Idx) :
    (dot_S400x10000_S10000x64_S400x64_1_0_0_1_n_n.lhsIdx i q 0).val = (i 0).val := by
  unfold DotDims.lhsIdx
  rw [dif_neg (show ¬(0 : Fin S400x10000.rank) ∈ dot_S400x10000_S10000x64_S400x64_1_0_0_1_n_n.lhsBatch by decide), dif_pos (show (0 : Fin S400x10000.rank) ∈ dot_S400x10000_S10000x64_S400x64_1_0_0_1_n_n.lhsNonContracting by decide)]
  rfl
theorem hid_lhs_1 (i : S400x64.Idx) (q : dot_S400x10000_S10000x64_S400x64_1_0_0_1_n_n.contr.Idx) :
    (dot_S400x10000_S10000x64_S400x64_1_0_0_1_n_n.lhsIdx i q 1).val = (q ⟨0, by decide⟩).val :=
  dot_S400x10000_S10000x64_S400x64_1_0_0_1_n_n.lhsIdx_val_of_single rfl i q
theorem hid_rhs_0 (i : S400x64.Idx) (q : dot_S400x10000_S10000x64_S400x64_1_0_0_1_n_n.contr.Idx) :
    (dot_S400x10000_S10000x64_S400x64_1_0_0_1_n_n.rhsIdx i q 0).val = (q ⟨0, by decide⟩).val :=
  dot_S400x10000_S10000x64_S400x64_1_0_0_1_n_n.rhsIdx_val_of_single rfl i q
theorem hid_rhs_1 (i : S400x64.Idx) (q : dot_S400x10000_S10000x64_S400x64_1_0_0_1_n_n.contr.Idx) :
    (dot_S400x10000_S10000x64_S400x64_1_0_0_1_n_n.rhsIdx i q 1).val = (i 1).val := by
  unfold DotDims.rhsIdx
  rw [dif_neg (show ¬(1 : Fin S10000x64.rank) ∈ dot_S400x10000_S10000x64_S400x64_1_0_0_1_n_n.rhsBatch by decide), dif_pos (show (1 : Fin S10000x64.rank) ∈ dot_S400x10000_S10000x64_S400x64_1_0_0_1_n_n.rhsNonContracting by decide)]
  rfl

/-- The hidden-layer payload at an entry: a row of the adjacency block against a column of the support, plus the bias row. -/
theorem pay3_apply (a : Vec Ideal S400x10000 .f32) (s : Vec Ideal S10000x64 .f32) (b2 : Vec Ideal S1x64 .f32)
    (p : Fin 400) (k : Fin 64) :
    k0_pay3 (F := Ideal) a s b2 (ix2 p k)
      = (∑ n : Fin 10000, a (ix2 p n) * s (ix2 n k)) + b2 (ix2 (0 : Fin 1) k) := by
  unfold k0_pay3
  simp only [matmul]
  -- the sum of two arrays reads entrywise; the bias row's cast keeps its shape, and its one row is read at every row
  rw [addf_apply, shapeCast_self, broadcastTo_1b_ab_apply]
  -- the product into the zero accumulator is the bare sum, over one contracted axis of extent 10000
  rw [Ideal.matmul_constant_zero_apply, ← Equiv.sum_comp (contrEquiv1 dot_S400x10000_S10000x64_S400x64_1_0_0_1_n_n 10000 rfl rfl).symm]
  refine congrArg (· + b2 (ix2 (0 : Fin 1) k)) (Finset.sum_congr rfl fun n _ => ?_)
  have hn := contrEquiv1_symm_val dot_S400x10000_S10000x64_S400x64_1_0_0_1_n_n 10000 rfl rfl n
  have el : dot_S400x10000_S10000x64_S400x64_1_0_0_1_n_n.lhsIdx (ix2 p k) ((contrEquiv1 dot_S400x10000_S10000x64_S400x64_1_0_0_1_n_n 10000 rfl rfl).symm n) = ix2 p n := funext fun c => Fin.ext (by
    match c with
    | ⟨0, _⟩ => exact hid_lhs_0 _ _
    | ⟨1, _⟩ => exact (hid_lhs_1 _ _).trans hn)
  have er : dot_S400x10000_S10000x64_S400x64_1_0_0_1_n_n.rhsIdx (ix2 p k) ((contrEquiv1 dot_S400x10000_S10000x64_S400x64_1_0_0_1_n_n 10000 rfl rfl).symm n) = ix2 n k := funext fun c => Fin.ext (by
    match c with
    | ⟨0, _⟩ => exact (hid_rhs_0 _ _).trans hn
    | ⟨1, _⟩ => exact hid_rhs_1 _ _)
  rw [el, er]

/-- The stored block is three pieces side by side; its first 64 columns are the hidden layer, -/
theorem pay1_apply_left (v9 : FVec Ideal S400x64 .f32) (v37 : FVec Ideal S400x10 .f32) (p : Fin 400) (col : Fin 128)
    (k : Fin 64) (hk : col.val = k.val) :
    k0_pay1 (F := Ideal) v9 v37 (ix2 p col) = v9 (ix2 p k) := by
  unfold k0_pay1
  -- piece 0 starts at column 0: column `col` of the whole is column `k` of the piece
  refine concatenate_apply_piece (t := S400x128) 1 _ _ (ix2 p col) 0 ?len S400x64 v9 rfl rfl 0 rfl (ix2 p k)
    (fun b hb => ?off) ?on
  case len => exact Nat.zero_lt_succ _
  case off =>
    match b with
    | ⟨0, _⟩ => rfl
    | ⟨1, _⟩ => exact absurd rfl hb
  case on =>
    show 0 + k.val = col.val
    omega

/-- the next 10 the assignment, -/
theorem pay1_apply_mid (v9 : FVec Ideal S400x64 .f32) (v37 : FVec Ideal S400x10 .f32) (p : Fin 400) (col : Fin 128)
    (j : Fin 10) (hj : col.val = 64 + j.val) :
    k0_pay1 (F := Ideal) v9 v37 (ix2 p col) = v37 (ix2 p j) := by
  unfold k0_pay1
  -- piece 1 starts after the 64 columns of piece 0
  refine concatenate_apply_piece (t := S400x128) 1 _ _ (ix2 p col) 1 ?len S400x10 v37 rfl rfl 64 rfl (ix2 p j)
    (fun b hb => ?off) ?on
  case len => exact Nat.succ_lt_succ (Nat.zero_lt_succ _)
  case off =>
    match b with
    | ⟨0, _⟩ => rfl
    | ⟨1, _⟩ => exact absurd rfl hb
  case on =>
    show 64 + j.val = col.val
    omega

/-- and the last 54 are zero. -/
theorem pay1_apply_pad (v9 : FVec Ideal S400x64 .f32) (v37 : FVec Ideal S400x10 .f32) (p : Fin 400) (col : Fin 128)
    (h : 74 ≤ col.val) :
    k0_pay1 (F := Ideal) v9 v37 (ix2 p col) = 0 := by
  unfold k0_pay1
  have hc : col.val - 74 < 54 := by have := col.isLt; omega
  -- piece 2 starts after 64 + 10 = 74 columns and is the zero word everywhere
  refine Eq.trans (concatenate_apply_piece (t := S400x128) 1 _ _ (ix2 p col) 2 ?len S400x54
    (broadcast S400x54 (Scalar.ofBits (F := Ideal) .f32 0x00000000#32)) rfl rfl 74 rfl (ix2 p ⟨col.val - 74, hc⟩)
    (fun b hb => ?off) ?on) Ideal.ofBits_zero_f32
  case len => exact Nat.succ_lt_succ (Nat.succ_lt_succ (Nat.zero_lt_succ _))
  case off =>
    match b with
    | ⟨0, _⟩ => rfl
    | ⟨1, _⟩ => exact absurd rfl hb
  case on =>
    show 74 + (col.val - 74) = col.val
    omega

end Cert.KernelIdeal.PayloadValue

end
-- ==== Proof.PayloadAssign.lean ====
import proofs.«160047_g75067438399519_cont_9to1c4b_260_25_alg».proof.Proof.Gen.KernelIdeal.Skeleton
import proofs.«160047_g75067438399519_cont_9to1c4b_260_25_alg».proof.Proof.Spec
import Idealize.ShloMosaic.Lib.ValueIdx
import Idealize.ShloMosaic.Lib.ValueLayout
import Idealize.ShloMosaic.Lib.Pipeline.Value
import Idealize.ShloMosaic.PureOps.Ideal.Laws

noncomputable section

namespace Cert.KernelIdeal.PayloadValue

open Idealize.ShloMosaic Idealize.ShloMosaic.ValueIdx Cert.KernelIdeal Cert.KernelIdeal.Gen Cert.GcnDec

/-! ## Keepdims layout: a vector kept as a column, and a column spread over the lanes -/

section Layout
variable {α : Type}

/-- An `[a]` array cast to the column `[a, 1]` reads, at `(i, u)`, the operand at `i`, whatever the unit coordinate `u`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- A column `[a, 1]` broadcast to `[a, b]` reads, at `(p, c)`, the column's entry of row `p`. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

end Layout

/-! ## A lane sum, alone and kept as a column or as a row -/

/-- The sum over the lanes of a matrix, read at row `p`: the `Fin`-indexed sum of that row. -/
theorem rowSum_apply {a b : ℕ} (w : FVec Ideal ⟨2, ![a, b]⟩ .f32) (hr : Shape.Reduces ⟨2, ![a, b]⟩ [1] ⟨1, ![a]⟩)
    (hφ : FKind.Formats .f32) (hacc : (0x00000000#32 : BitVec 32) = FKind.add.neutral .f32 hφ) (p : Fin a) :
    multiReduction .add [1] ⟨1, ![a]⟩ w 0x00000000#32 hr hφ hacc (ix1 p) = ∑ k : Fin b, w (ix2 p k) := by
  refine (Ideal.multiReduction_add_single w 0x00000000#32 hr hφ hacc (ix1 p)).trans ?_
  refine Finset.sum_congr rfl fun k _ => congrArg w (funext fun c => Fin.ext ?_)
  match c with
  | ⟨0, _⟩ => rfl
  | ⟨1, _⟩ => rfl

/-- The row sums kept as a column and spread over `n` lanes: at `(p, c)` the sum of row `p`. -/
theorem rowSumKeep_apply {a b n : ℕ} (w : FVec Ideal ⟨2, ![a, b]⟩ .f32) (hr : Shape.Reduces ⟨2, ![a, b]⟩ [1] ⟨1, ![a]⟩)
    (hφ : FKind.Formats .f32) (hacc : (0x00000000#32 : BitVec 32) = FKind.add.neutral .f32 hφ)
    (hs : (⟨1, ![a]⟩ : Shape).ShapeCasts ⟨2, ![a, 1]⟩) (hb : (⟨2, ![a, 1]⟩ : Shape).Broadcasts ⟨2, ![a, n]⟩)
    (p : Fin a) (c : Fin n) :
    broadcastTo ⟨2, ![a, n]⟩ (shapeCast ⟨2, ![a, 1]⟩ (multiReduction .add [1] ⟨1, ![a]⟩ w 0x00000000#32 hr hφ hacc) hs) hb (ix2 p c)
      = ∑ k : Fin b, w (ix2 p k) :=
  (broadcastTo_a1_ab_apply _ hb p c).trans ((shapeCast_a_a1_apply _ hs p 0).trans (rowSum_apply w hr hφ hacc p))

/-- The row sums of an `[n, b]` matrix kept as a row and spread over `a` sublanes: at `(p, c)` the sum of row `c`. -/
theorem rowSumAcross_apply {a b n : ℕ} (w : FVec Ideal ⟨2, ![n, b]⟩ .f32) (hr : Shape.Reduces ⟨2, ![n, b]⟩ [1] ⟨1, ![n]⟩)
    (hφ : FKind.Formats .f32) (hacc : (0x00000000#32 : BitVec 32) = FKind.add.neutral .f32 hφ)
    (hs : (⟨1, ![n]⟩ : Shape).ShapeCasts ⟨2, ![1, n]⟩) (hb : (⟨2, ![1, n]⟩ : Shape).Broadcasts ⟨2, ![a, n]⟩)
    (p : Fin a) (c : Fin n) :
    broadcastTo ⟨2, ![a, n]⟩ (shapeCast ⟨2, ![1, n]⟩ (multiReduction .add [1] ⟨1, ![n]⟩ w 0x00000000#32 hr hφ hacc) hs) hb (ix2 p c)
      = ∑ k : Fin b, w (ix2 c k) :=
  (broadcastTo_1b_ab_apply _ hb p c).trans ((shapeCast_a_1a_apply _ hs 0 c).trans (rowSum_apply w hr hφ hacc c))

/-! ## The product of the row block with the centres, both contracted on their lanes -/

theorem lhs_cross_0 (i : S400x10.Idx) (q : dot_S400x64_S10x64_S400x10_1_1_0_0_n_n.contr.Idx) :
    (dot_S400x64_S10x64_S400x10_1_1_0_0_n_n.lhsIdx i q 0).val = (i 0).val := by
  unfold DotDims.lhsIdx
  rw [dif_neg (show ¬(0 : Fin S400x64.rank) ∈ dot_S400x64_S10x64_S400x10_1_1_0_0_n_n.lhsBatch by decide), dif_pos (show (0 : Fin S400x64.rank) ∈ dot_S400x64_S10x64_S400x10_1_1_0_0_n_n.lhsNonContracting by decide)]
  rfl
theorem lhs_cross_1 (i : S400x10.Idx) (q : dot_S400x64_S10x64_S400x10_1_1_0_0_n_n.contr.Idx) :
    (dot_S400x64_S10x64_S400x10_1_1_0_0_n_n.lhsIdx i q 1).val = (q ⟨0, by decide⟩).val :=
  dot_S400x64_S10x64_S400x10_1_1_0_0_n_n.lhsIdx_val_of_single rfl i q
theorem rhs_cross_0 (i : S400x10.Idx) (q : dot_S400x64_S10x64_S400x10_1_1_0_0_n_n.contr.Idx) :
    (dot_S400x64_S10x64_S400x10_1_1_0_0_n_n.rhsIdx i q 0).val = (i 1).val := by
  unfold DotDims.rhsIdx
  rw [dif_neg (show ¬(0 : Fin S10x64.rank) ∈ dot_S400x64_S10x64_S400x10_1_1_0_0_n_n.rhsBatch by decide), dif_pos (show (0 : Fin S10x64.rank) ∈ dot_S400x64_S10x64_S400x10_1_1_0_0_n_n.rhsNonContracting by decide)]
  rfl
theorem rhs_cross_1 (i : S400x10.Idx) (q : dot_S400x64_S10x64_S400x10_1_1_0_0_n_n.contr.Idx) :
    (dot_S400x64_S10x64_S400x10_1_1_0_0_n_n.rhsIdx i q 1).val = (q ⟨0, by decide⟩).val :=
  dot_S400x64_S10x64_S400x10_1_1_0_0_n_n.rhsIdx_val_of_single rfl i q

/-- The matrix product of the row block `o` with the centres, each contracted on its lane axis, into zero: at `(p, c)`
    the inner product of row `p` of `o` with centre `c`. -/
theorem cross_apply (o : FVec Ideal S400x64 .f32) (mu : FVec Ideal S10x64 .f32) (p : Fin 400) (c : Fin 10) :
    matmul dot_S400x64_S10x64_S400x10_1_1_0_0_n_n none o mu (constant (F := Ideal) S400x10 .f32 0x00000000#32) (ix2 p c)
      = ∑ k : Fin 64, o (ix2 p k) * mu (ix2 c k) := by
  simp only [matmul]
  rw [Ideal.matmul_constant_zero_apply, ← Equiv.sum_comp (contrEquiv1 dot_S400x64_S10x64_S400x10_1_1_0_0_n_n 64 rfl rfl).symm]
  refine Finset.sum_congr rfl fun k _ => ?_
  have hk := contrEquiv1_symm_val dot_S400x64_S10x64_S400x10_1_1_0_0_n_n 64 rfl rfl k
  have el : dot_S400x64_S10x64_S400x10_1_1_0_0_n_n.lhsIdx (ix2 p c) ((contrEquiv1 dot_S400x64_S10x64_S400x10_1_1_0_0_n_n 64 rfl rfl).symm k) = ix2 p k := funext fun a => Fin.ext (by
    match a with
    | ⟨0, _⟩ => exact lhs_cross_0 _ _
    | ⟨1, _⟩ => exact (lhs_cross_1 _ _).trans hk)
  have er : dot_S400x64_S10x64_S400x10_1_1_0_0_n_n.rhsIdx (ix2 p c) ((contrEquiv1 dot_S400x64_S10x64_S400x10_1_1_0_0_n_n 64 rfl rfl).symm k) = ix2 c k := funext fun a => Fin.ext (by
    match a with
    | ⟨0, _⟩ => exact rhs_cross_0 _ _
    | ⟨1, _⟩ => exact (rhs_cross_1 _ _).trans hk)
  rw [el, er]

/-! ## The payload's expression over the row block, in three stages

The assignment payload reads the hidden-layer payload only as a whole `[400, 64]` block `o`; over such a block it is the
composition below, stage by stage, and each stage is read at an entry. -/

/-- The squared distances as the kernel spells them: the row norms of `o` kept as a column, minus twice the product with
    the centres, plus the centres' norms kept as a row. -/
def sqDistVec (o : FVec Ideal S400x64 .f32) (mu : FVec Ideal S10x64 .f32) : FVec Ideal S400x10 .f32 :=
  addf
    (subf
      (broadcastTo S400x10 (shapeCast S400x1 (multiReduction (F := Ideal) .add [1] S400 (mulf o o) 0x00000000#32 reduces_S400x64_S400 (.inl rfl) rfl) shapeCasts_S400_S400x1) broadcasts_S400x1_S400x10)
      (mulf (broadcast S400x10 (Scalar.ofBits (F := Ideal) .f32 0x40000000#32))
        (matmul dot_S400x64_S10x64_S400x10_1_1_0_0_n_n none o mu (constant (F := Ideal) S400x10 .f32 0x00000000#32))))
    (broadcastTo S400x10 (shapeCast S1x10 (multiReduction (F := Ideal) .add [1] S10 (mulf mu mu) 0x00000000#32 reduces_S10x64_S10 (.inl rfl) rfl) shapeCasts_S10_S1x10) broadcasts_S1x10_S400x10)

/-- The unnormalised weights: `exp(c' · log(1 + d·κ + ε))`, every constant a splat. -/
def weightVec (o : FVec Ideal S400x64 .f32) (mu : FVec Ideal S10x64 .f32) : FVec Ideal S400x10 .f32 :=
  exp (mulf (broadcast S400x10 (Scalar.ofBits (F := Ideal) .f32 0xBF19999A#32))
    (log (addf
      (addf (broadcast S400x10 (Scalar.ofBits (F := Ideal) .f32 0x3F800000#32))
        (mulf (sqDistVec o mu) (broadcast S400x10 (Named.named (F := Ideal) κ "inv_alpha" (φ := .f32) 0x40A00000#32))))
      (broadcast S400x10 (Scalar.ofBits (F := Ideal) .f32 0x322BCC77#32)))))

/-- The weights divided by their lane sums, those kept as a column and spread back over the lanes. -/
def assignVec (o : FVec Ideal S400x64 .f32) (mu : FVec Ideal S10x64 .f32) : FVec Ideal S400x10 .f32 :=
  divf (weightVec o mu)
    (broadcastTo S400x10 (shapeCast S400x1 (multiReduction (F := Ideal) .add [1] S400 (weightVec o mu) 0x00000000#32 reduces_S400x10_S400 (.inl rfl) rfl) shapeCasts_S400_S400x1) broadcasts_S400x1_S400x10)

/-- The assignment payload is that composition over the hidden-layer payload: the two unfold to the same term. -/
theorem pay4_eq_assignVec (a : Vec Ideal S400x10000 .f32) (s : Vec Ideal S10000x64 .f32) (b2 : Vec Ideal S1x64 .f32)
    (mu : Vec Ideal S10x64 .f32) :
    k0_pay4 (F := Ideal) a s b2 mu = assignVec (k0_pay3 (F := Ideal) a s b2) mu := rfl

/-- The squared distances at `(p, c)`: the expanded square of the distance from row `p` of `o` to centre `c`. -/
theorem sqDistVec_apply (o : FVec Ideal S400x64 .f32) (mu : FVec Ideal S10x64 .f32) (p : Fin 400) (c : Fin 10) :
    sqDistVec o mu (ix2 p c) = sqDistExpanded (fun k => o (ix2 p k)) mu c := by
  unfold sqDistVec sqDistExpanded
  rw [addf_apply, subf_apply, mulf_apply, broadcast_apply]
  exact congrArg₂ (· + ·)
    (congrArg₂ (· - ·) (rowSumKeep_apply (mulf o o) _ _ _ _ _ p c)
      (congrArg (Ideal.ofBits .f32 0x40000000#32 * ·) (cross_apply o mu p c)))
    (rowSumAcross_apply (mulf mu mu) _ _ _ _ _ p c)

/-- The weights at `(p, c)`. Every operation above the squared distance is pointwise, so the entry is the same chain of
    scalar operations on the squared distance's entry. -/
theorem weightVec_apply (o : FVec Ideal S400x64 .f32) (mu : FVec Ideal S10x64 .f32) (p : Fin 400) (c : Fin 10) :
    weightVec o mu (ix2 p c)
      = weightExpanded (Named.named (F := Ideal) κ "inv_alpha" (φ := .f32) 0x40A00000#32) (fun k => o (ix2 p k)) mu c := by
  unfold weightExpanded baseExpanded
  rw [← sqDistVec_apply o mu p c]
  rfl

/-- The normalised weights at `(p, j)`. -/
theorem assignVec_apply (o : FVec Ideal S400x64 .f32) (mu : FVec Ideal S10x64 .f32) (p : Fin 400) (j : Fin 10) :
    assignVec o mu (ix2 p j)
      = assignExpanded (Named.named (F := Ideal) κ "inv_alpha" (φ := .f32) 0x40A00000#32) (fun k => o (ix2 p k)) mu j := by
  unfold assignVec assignExpanded
  rw [divf_apply]
  exact congrArg₂ Ideal.div (weightVec_apply o mu p j)
    ((rowSumKeep_apply (weightVec o mu) _ _ _ _ _ p j).trans (Finset.sum_congr rfl fun c _ => weightVec_apply o mu p c))

/-- The assignment payload at an entry is the expanded spelling of the soft assignment, of the row of the hidden-layer
    payload and the centres, with the named reciprocal as its scale. -/
theorem pay4_apply (a : Vec Ideal S400x10000 .f32) (s : Vec Ideal S10000x64 .f32) (b2 : Vec Ideal S1x64 .f32)
    (mu : Vec Ideal S10x64 .f32) (p : Fin 400) (j : Fin 10) :
    k0_pay4 (F := Ideal) a s b2 mu (ix2 p j)
      = assignExpanded (Named.named (F := Ideal) κ "inv_alpha" (φ := .f32) 0x40A00000#32)
          (fun k => k0_pay3 (F := Ideal) a s b2 (ix2 p k)) mu j :=
  (congrFun (pay4_eq_assignVec a s b2 mu) (ix2 p j)).trans (assignVec_apply (k0_pay3 (F := Ideal) a s b2) mu p j)

end Cert.KernelIdeal.PayloadValue

end
-- ==== Proof.KernelArray.lean ====
/-
  The kernel's result arrays, as functions of its argument arrays.

  The pallas_call writes one wide array of 128 columns: row `r` holds the hidden layer `H[r,·]` in columns 0–63,
  the soft assignment of that row in columns 64–73 and zeros after.  Point `t` of the grid writes rows
  400·t … 400·t+399, and the 25 points cover every row.  The two results are the column bands [0,64) and [64,74).
-/
import proofs.«160047_g75067438399519_cont_9to1c4b_260_25_alg».proof.Proof.KernelPieces
import proofs.«160047_g75067438399519_cont_9to1c4b_260_25_alg».proof.Proof.PayloadLayer
import proofs.«160047_g75067438399519_cont_9to1c4b_260_25_alg».proof.Proof.PayloadAssign
import proofs.«160047_g75067438399519_cont_9to1c4b_260_25_alg».proof.Proof.Spec
import Idealize.ShloMosaic.Lib.Pipeline.Value
import Idealize.ShloMosaic.Lib.ValueLayout
import Idealize.ShloMosaic.Lib.StableHlo.Run

noncomputable section

namespace Cert.KernelIdeal.ArrayValue

open Idealize.ShloMosaic Idealize.ShloMosaic.TcCoe Idealize.SL.Sem Idealize.ShloMosaic.ValueIdx
open Idealize.ShloMosaic.Pipeline (Dat)
open Cert.KernelIdeal Cert.KernelIdeal.Gen Cert.KernelIdeal.PieceValue Cert.KernelIdeal.PayloadValue Cert.GcnDec

variable (m : (ℓ : Loc nD τ sig) → Buf (Elt Ideal) ℓ) (ρ : Dev nD → PrngReg)

/-! ## The argument arrays, and the scale constant -/

abbrev argX (c : Dev nD) : SX.Idx → EReal := m ((c : Thread nD τ).loc main_arg0)
abbrev argA (c : Dev nD) : SA.Idx → EReal := m ((c : Thread nD τ).loc main_arg1)
abbrev argW (c : Dev nD) : SW.Idx → EReal := m ((c : Thread nD τ).loc main_arg2)
abbrev argB (c : Dev nD) : SB.Idx → EReal := m ((c : Thread nD τ).loc main_arg3)
abbrev argM (c : Dev nD) : SM.Idx → EReal := m ((c : Thread nD τ).loc main_arg4)

/-- The reciprocal of α as the kernel spells it. -/
abbrev invAlpha : EReal := Named.named (F := Ideal) κ "inv_alpha" (φ := .f32) 0x40A00000#32

/-- Row `r` of the hidden layer. -/
abbrev hrow (c : Dev nD) (r : Fin 10000) : Fin 64 → EReal := GcnDec.hidden (argX m c) (argA m c) (argW m c) (argB m c) r

/-- The wide array. -/
def wide (c : Dev nD) : S10000x128.Idx → EReal := fun i =>
  if h : (i 1).val < 64 then hrow m c (i 0) ⟨(i 1).val, h⟩
  else if h2 : (i 1).val < 74 then assignExpanded invAlpha (hrow m c (i 0)) (argM m c) ⟨(i 1).val - 64, by omega⟩
  else 0

/-! ## The operands as the region finds them -/

/-- The bias reaches the kernel reshaped to one row. -/
theorem bRow_apply (c : Dev nD) (k : Fin 64) : bRow m c (ix2 (0 : Fin 1) k) = argB m c (ix1 k) := by
  have e : (V m c main_v0 : S1x64.Idx → EReal) = shapeCast S1x64 (m ((c : Thread nD τ).loc main_arg3)) shapeCasts_S64_S1x64 := by
    show StableHlo.after hostOps0 (fun b => m (c, b)) (Proc.devRef .tc main_v0) = _
    after_results
    rfl
  show V m c main_v0 (ix2 (0 : Fin 1) k) = _
  rw [e]
  exact shapeCast_a_1a_apply _ _ _ _

/-- The adjacency block of point `t` is rows 400·t … of the adjacency. -/
theorem adj_idx : ∀ t : Fin cfg0.N, win0_1.index t (0 : Fin 2) = t.val ∧ win0_1.index t (1 : Fin 2) = 0
    ∧ win0_5.index t (0 : Fin 2) = t.val ∧ win0_5.index t (1 : Fin 2) = 0 :=
  (by decide +kernel : ∀ t : Fin grid0.N, _)

theorem adjBlk_apply (c : Dev nD) (t : Fin cfg0.N) (p : Fin 400) (n : Fin 10000) (r : Fin 10000)
    (hr : r.val = 400 * t.val + p.val) :
    adjBlk m c t (ix2 p n) = argA m c (ix2 r n) := by
  obtain ⟨e0, e1, -⟩ := adj_idx t
  unfold adjBlk iblk
  rw [View.read_apply]
  show V m c main_arg1 _ = _
  rw [V_main_arg1]
  show m ((c : Thread nD τ).loc main_arg1) _ = m ((c : Thread nD τ).loc main_arg1) _
  congr 1
  funext a; apply Fin.ext
  match a with
  | ⟨0, _⟩ => show win0_1.index t (0 : Fin 2) * 400 + 1 * p.val = r.val; omega
  | ⟨1, _⟩ => show win0_1.index t (1 : Fin 2) * 10000 + 1 * n.val = n.val; omega

theorem xArr_eq (c : Dev nD) : xArr m c = argX m c := V_main_arg0 m c
theorem wArr_eq (c : Dev nD) : wArr m c = argW m c := V_main_arg2 m c
theorem muArr_eq (c : Dev nD) : muArr m c = argM m c := V_main_arg4 m c

/-- The scratch's entry is the support of the argument arrays. -/
theorem supArr_apply (c : Dev nD) (n : Fin 10000) (k : Fin 64) :
    supArr m c (ix2 n k) = support (argX m c) (argW m c) n k := by
  show k0_pay2 (F := Ideal) (xArr m c) (wArr m c) (ix2 n k) = _
  rw [pay2_apply, xArr_eq, wArr_eq]
  rfl

/-- The hidden-layer payload of point `t` at local row `p` is row 400·t + p of the hidden layer. -/
theorem hidden_block (c : Dev nD) (t : Fin cfg0.N) (p : Fin 400) (k : Fin 64) (r : Fin 10000)
    (hr : r.val = 400 * t.val + p.val) :
    k0_pay3 (F := Ideal) (adjBlk m c t) (supArr m c) (bRow m c) (ix2 p k) = hrow m c r k := by
  rw [pay3_apply, bRow_apply]
  unfold hrow GcnDec.hidden
  congr 1
  exact Finset.sum_congr rfl fun n _ => by rw [adjBlk_apply m c t p n r hr, supArr_apply]

/-! ## What a point writes back is its rows of the wide array -/

/-- Entry `y` of point `t`'s block is entry (400·t + y₀, y₁) of the wide array: the three column bands one by one. -/
theorem block_apply (c : Dev nD) (t : Fin cfg0.N) (y : S400x128.Idx) (i : S10000x128.Idx)
    (h0 : (i 0).val = 400 * t.val + (y 0).val) (h1 : (i 1).val = (y 1).val) :
    blockAt m c t y = wide m c i := by
  obtain ⟨p, col, rfl⟩ : ∃ (p : Fin 400) (col : Fin 128), y = ix2 p col := ⟨y 0, y 1, eq_ix2 y⟩
  obtain ⟨r, col', rfl⟩ : ∃ (r : Fin 10000) (col' : Fin 128), i = ix2 r col' := ⟨i 0, i 1, eq_ix2 i⟩
  have hr : r.val = 400 * t.val + p.val := h0
  obtain rfl : col = col' := (Fin.ext h1).symm
  unfold blockAt wide
  by_cases h : col.val < 64
  · rw [dif_pos (show ((ix2 r col : S10000x128.Idx) 1).val < 64 from h), pay1_apply_left _ _ p col ⟨col.val, h⟩ rfl]
    exact hidden_block m c t p _ r hr
  · by_cases h2 : col.val < 74
    · rw [dif_neg (show ¬((ix2 r col : S10000x128.Idx) 1).val < 64 from h), dif_pos (show ((ix2 r col : S10000x128.Idx) 1).val < 74 from h2),
        pay1_apply_mid _ _ p col ⟨col.val - 64, by omega⟩ (by show col.val = 64 + (col.val - 64); omega), pay4_apply, muArr_eq]
      exact congrArg (fun o => assignExpanded invAlpha o (argM m c) _) (funext fun k => hidden_block m c t p k r hr)
    · rw [dif_neg (show ¬((ix2 r col : S10000x128.Idx) 1).val < 64 from h), dif_neg (show ¬((ix2 r col : S10000x128.Idx) 1).val < 74 from h2),
        pay1_apply_pad _ _ p col (by omega)]

theorem flushed_eq (c : Dev nD) (t : Fin cfg0.N) :
    (dats m 0 c).flushed 5 t = ((cfg0.win 5).blk t).view.read (Elt Ideal) (wide m c) := by
  show (cfg0.win 5).cut (grid0.coords t) ((dats m 0 c).after 5 t) = _
  rw [after0_5, block_eq]
  obtain ⟨-, -, e0, e1⟩ := adj_idx t
  funext y
  rw [View.read_apply]
  refine block_apply m c t _ _ ?_ ?_
  · show win0_5.index t (0 : Fin 2) * 400 + 1 * (y 0).val = 400 * t.val + (y 0).val; omega
  · show win0_5.index t (1 : Fin 2) * 128 + 1 * (y 1).val = (y 1).val; omega

/-! ## The 25 points cover every row -/

theorem mem_blk (t : Fin cfg0.N) (i : S10000x128.Idx) :
    i ∈ ((cfg0.win 5).blk t).view.set ↔ ∀ a : Fin 2, win0_5.index t a * S400x128.size a ≤ (i a).val
      ∧ (i a).val < win0_5.index t a * S400x128.size a + S400x128.size a := by
  show i ∈ ((View.whole main_v1).slice (win0_5.rect t)).set ↔ _
  rw [View.set_slice_whole, Rect.mem_set_unit]
  exact Iff.rfl

/-- The wide array after the run. -/
theorem final (c : Dev nD) : (dats m 0 c).arrAt 5 cfg0.N = wide m c :=
  (dats m 0 c).arrAt_eq_of_cover 5 (wide m c) (fun t _ => flushed_eq m c t) fun i => by
    have hi0 : (i 0).val < 10000 := (i 0).isLt
    have hi1 : (i 1).val < 128 := (i 1).isLt
    have hN : cfg0.N = 25 := N_0
    have ht : (i 0).val / 400 < cfg0.N := by omega
    obtain ⟨-, -, e0, e1⟩ := adj_idx ⟨(i 0).val / 400, ht⟩
    refine ⟨⟨(i 0).val / 400, ht⟩, flush0_5 _, ?_⟩
    rw [mem_blk]
    intro a
    match a with
    | ⟨0, _⟩ =>
      show win0_5.index ⟨(i 0).val / 400, ht⟩ (0 : Fin 2) * 400 ≤ (i 0).val
        ∧ (i 0).val < win0_5.index ⟨(i 0).val / 400, ht⟩ (0 : Fin 2) * 400 + 400
      rw [e0]; dsimp only; omega
    | ⟨1, _⟩ =>
      show win0_5.index ⟨(i 0).val / 400, ht⟩ (1 : Fin 2) * 128 ≤ (i 1).val
        ∧ (i 1).val < win0_5.index ⟨(i 0).val / 400, ht⟩ (1 : Fin 2) * 128 + 128
      rw [e1]; omega

/-! ## The two results: the column bands the host cuts out of the wide array -/

theorem wide_left (c : Dev nD) (i : S10000x128.Idx) (r : Fin 10000) (k : Fin 64) (h0 : (i 0).val = r.val)
    (h1 : (i 1).val = k.val) : wide m c i = hrow m c r k := by
  obtain ⟨r', col, rfl⟩ : ∃ (r' : Fin 10000) (col : Fin 128), i = ix2 r' col := ⟨i 0, i 1, eq_ix2 i⟩
  obtain rfl : r' = r := Fin.ext h0
  have hk : col.val < 64 := by have := k.isLt; have : col.val = k.val := h1; omega
  unfold wide
  rw [dif_pos (show ((ix2 r' col : S10000x128.Idx) 1).val < 64 from hk)]
  exact congrArg (hrow m c r') (Fin.ext h1)

theorem wide_mid (c : Dev nD) (i : S10000x128.Idx) (r : Fin 10000) (j : Fin 10) (h0 : (i 0).val = r.val)
    (h1 : (i 1).val = 64 + j.val) : wide m c i = assignExpanded invAlpha (hrow m c r) (argM m c) j := by
  obtain ⟨r', col, rfl⟩ : ∃ (r' : Fin 10000) (col : Fin 128), i = ix2 r' col := ⟨i 0, i 1, eq_ix2 i⟩
  obtain rfl : r' = r := Fin.ext h0
  have hc : col.val = 64 + j.val := h1
  have hj := j.isLt
  unfold wide
  rw [dif_neg (show ¬((ix2 r' col : S10000x128.Idx) 1).val < 64 by show ¬col.val < 64; omega),
    dif_pos (show ((ix2 r' col : S10000x128.Idx) 1).val < 74 by show col.val < 74; omega)]
  exact congrArg (assignExpanded invAlpha (hrow m c r') (argM m c)) (Fin.ext (by show col.val - 64 = j.val; omega))

/-- The first result: the hidden layer. -/
def hiddenArr (c : Dev nD) : S10000x64.Idx → EReal := fun i => hrow m c (i 0) (i 1)
/-- The second result: each row's soft assignment, in the expanded spelling. -/
def assignArr (c : Dev nD) : S10000x10.Idx → EReal := fun i => assignExpanded invAlpha (hrow m c (i 0)) (argM m c) (i 1)

/-- After the region the host reads the wide array the pipeline left. -/
theorem wide_after (c : Dev nD) :
    Pipeline.withArrays (cfgs 0).spec c (V0 m c) (fun w => (dats m 0 c).arrAt w (cfgs 0).N) (Proc.devRef .tc main_v1)
      = wide m c :=
  (Pipeline.withArrays_arr spec0 launch0.win.arr_inj c _ _ 5).trans (final m c)

theorem tail_hidden (c : Dev nD) :
    Pipeline.afterTail₀ cfgs (dats m) 0 (V0 m) [hostOps1] c main_v2 = hiddenArr m c := by
  unfold Pipeline.afterTail₀
  show StableHlo.after hostOps1 _ (Proc.devRef .tc main_v2) = _
  after_results
  rw [wide_after]
  funext i
  unfold extractStridedSlice hiddenArr
  exact wide_left m c _ (i 0) (i 1) (by show 0 + (i 0).val = (i 0).val; omega) (by show 0 + (i 1).val = (i 1).val; omega)

theorem tail_assign (c : Dev nD) :
    Pipeline.afterTail₀ cfgs (dats m) 0 (V0 m) [hostOps1] c main_v3 = assignArr m c := by
  unfold Pipeline.afterTail₀
  show StableHlo.after hostOps1 _ (Proc.devRef .tc main_v3) = _
  after_results
  rw [wide_after]
  funext i
  unfold extractStridedSlice assignArr
  exact wide_mid m c _ (i 0) (i 1) (by show 0 + (i 0).val = (i 0).val; omega) (by show 64 + (i 1).val = 64 + (i 1).val; rfl)

/-! ## The run, read -/

/-- Every weakly fair execution ends with the two results at the hidden layer and its soft assignment, the
    arguments unchanged. -/
theorem run : θ_run defs (onTc (τ := τ) (main (F := Ideal))) ⟨m, fun _ => 0, ρ⟩ fun r => ∀ c : Dev nD,
      r.2.mem ((c.tc : Thread nD τ).loc main_v2) = hiddenArr m c
      ∧ r.2.mem ((c.tc : Thread nD τ).loc main_v3) = assignArr m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4) := by
  refine (θ_run defs _ _).mono (fun r h c => ?_) (run_main (F := Ideal) m ρ)
  exact ⟨((h c).2 main_v2 (Pipeline.mem_restRefs_of main_v2 (by decide) (by decide))).trans (tail_hidden m c),
    ((h c).2 main_v3 (Pipeline.mem_restRefs_of main_v3 (by decide) (by decide))).trans (tail_assign m c),
    ((h c).1 0).trans (((dats m 0 c).arrAt_in 0 rfl _).trans ((A_eq m c 0).trans (V_main_arg0 m c))),
    ((h c).1 1).trans (((dats m 0 c).arrAt_in 1 rfl _).trans ((A_eq m c 1).trans (V_main_arg1 m c))),
    ((h c).1 2).trans (((dats m 0 c).arrAt_in 2 rfl _).trans ((A_eq m c 2).trans (V_main_arg2 m c))),
    ((h c).2 main_arg3 (Pipeline.mem_restRefs_of main_arg3 (by decide) (by decide))).trans (W_main_arg3 m (dats m) c),
    ((h c).1 4).trans (((dats m 0 c).arrAt_in 4 rfl _).trans ((A_eq m c 4).trans (V_main_arg4 m c)))⟩

end Cert.KernelIdeal.ArrayValue

end
-- ==== Proof.RefValue.lean ====
import proofs.«160047_g75067438399519_cont_9to1c4b_260_25_alg».proof.Proof.Gen.ReferenceIdeal.Run
import proofs.«160047_g75067438399519_cont_9to1c4b_260_25_alg».proof.Proof.Gen.ReferenceIdeal.Read
import proofs.«160047_g75067438399519_cont_9to1c4b_260_25_alg».proof.Proof.Spec
import Idealize.ShloMosaic.Lib.ValueIdx
import Idealize.ShloMosaic.PureOps.Ideal.Laws

noncomputable section

namespace Cert.ReferenceIdeal.RefValue

open Idealize.ShloMosaic Idealize.ShloMosaic.ValueIdx Cert.ReferenceIdeal Cert.ReferenceIdeal.Read Cert.GcnDec

/-! ## Index equations: the reference's composed index maps at coordinate-built indices -/

/-- Left operand of the first contraction: row `n`, contracted coordinate `f`. -/
theorem lidx_v0_ix (n : Fin 10000) (k : Fin 64) (f : Fin 128) : lidx_main_v0 (ix2 n k) f = ix2 n f :=
  funext fun a => Fin.ext (by match a with | ⟨0, _⟩ => rfl | ⟨1, _⟩ => rfl)

/-- Right operand of the first contraction: contracted coordinate `f`, column `k`. -/
theorem ridx_v0_ix (n : Fin 10000) (k : Fin 64) (f : Fin 128) : ridx_main_v0 (ix2 n k) f = ix2 f k :=
  funext fun a => Fin.ext (by match a with | ⟨0, _⟩ => rfl | ⟨1, _⟩ => rfl)

/-- Left operand of the second contraction: row `r`, contracted coordinate `n`. -/
theorem lidx_v1_ix (r : Fin 10000) (k : Fin 64) (n : Fin 10000) : lidx_main_v1 (ix2 r k) n = ix2 r n :=
  funext fun a => Fin.ext (by match a with | ⟨0, _⟩ => rfl | ⟨1, _⟩ => rfl)

/-- Right operand of the second contraction: contracted coordinate `n`, column `k`. -/
theorem ridx_v1_ix (r : Fin 10000) (k : Fin 64) (n : Fin 10000) : ridx_main_v1 (ix2 r k) n = ix2 n k :=
  funext fun a => Fin.ext (by match a with | ⟨0, _⟩ => rfl | ⟨1, _⟩ => rfl)

/-- The bias is broadcast along the rows: entry `(r, k)` reads `b[k]`. -/
theorem idx_v2_v3_ix (r : Fin 10000) (k : Fin 64) : idx_main_v2 (idx_main_v3 (ix2 r k)) = ix1 k :=
  funext fun a => Fin.ext (by match a with | ⟨0, _⟩ => rfl)

/-! ## The graph-convolution layer -/

/-- The first contraction at an entry is `S[n,k] = Σ_f x[n,f] · W[f,k]`. -/
theorem support_eq (x0 : (⟨S10000x128, .f32⟩ : BufTy).Contents (Elt Ideal)) (x2 : (⟨S128x64, .f32⟩ : BufTy).Contents (Elt Ideal))
    (n : Fin 10000) (k : Fin 64) :
    val_main_v0 (F := Ideal) x0 x2 (ix2 n k) = support x0 x2 n k := by
  rw [val_main_v0_apply]
  simp only [lidx_v0_ix, ridx_v0_ix]
  rfl

/-- The reference's first result at an entry is the hidden layer. -/
theorem hidden_eq (x0 : (⟨S10000x128, .f32⟩ : BufTy).Contents (Elt Ideal)) (x1 : (⟨S10000x10000, .f32⟩ : BufTy).Contents (Elt Ideal))
    (x2 : (⟨S128x64, .f32⟩ : BufTy).Contents (Elt Ideal)) (x3 : (⟨S64, .f32⟩ : BufTy).Contents (Elt Ideal))
    (r : Fin 10000) (k : Fin 64) :
    val_main_v4 (F := Ideal) x0 x1 x2 x3 (ix2 r k) = hidden x0 x1 x2 x3 r k := by
  rw [val_main_v4_apply, val_main_v1_apply, val_main_v3_apply, val_main_v2_apply]
  simp only [lidx_v1_ix, ridx_v1_ix, idx_v2_v3_ix, support_eq, Ideal.addf_def]
  rfl

/-! ## The soft assignment -/

/-- A squared difference is read at `(r, j, k)` from the hidden layer at `(r, k)`: the row is repeated over the centres. -/
theorem idx_v5_v7_ix (r : Fin 10000) (j : Fin 10) (k : Fin 64) :
    idx_main_v5 (idx_main_v7 (idx_main_v11 (ix2 r j) k)) = ix2 r k :=
  funext fun a => Fin.ext (by match a with | ⟨0, _⟩ => rfl | ⟨1, _⟩ => rfl)

/-- ... and from the centres at `(j, k)`: the centres are repeated over the rows. -/
theorem idx_v6_v8_ix (r : Fin 10000) (j : Fin 10) (k : Fin 64) :
    idx_main_v6 (idx_main_v8 (idx_main_v11 (ix2 r j) k)) = ix2 j k :=
  funext fun a => Fin.ext (by match a with | ⟨0, _⟩ => rfl | ⟨1, _⟩ => rfl)

/-- The normaliser at `(r, j)` sums the weights of row `r` over the centres `j'`. -/
theorem idx_v22_v23_v24_ix (r : Fin 10000) (j j' : Fin 10) :
    idx_main_v22 (idx_main_v23 (idx_main_v24 (ix2 r j))) j' = ix2 r j' :=
  funext fun a => Fin.ext (by match a with | ⟨0, _⟩ => rfl | ⟨1, _⟩ => rfl)

/-- The un-normalised weight `(1 / (1 + ‖H[r,·] − mu[j,·]‖² / α + ε))^c` of row `r` against centre `j`. -/
theorem weight_eq (x0 : (⟨S10000x128, .f32⟩ : BufTy).Contents (Elt Ideal)) (x1 : (⟨S10000x10000, .f32⟩ : BufTy).Contents (Elt Ideal))
    (x2 : (⟨S128x64, .f32⟩ : BufTy).Contents (Elt Ideal)) (x3 : (⟨S64, .f32⟩ : BufTy).Contents (Elt Ideal))
    (x4 : (⟨S10x64, .f32⟩ : BufTy).Contents (Elt Ideal)) (r : Fin 10000) (j : Fin 10) :
    val_main_v21 (F := Ideal) x0 x1 x2 x3 x4 (ix2 r j) = weightDirect (fun k => hidden x0 x1 x2 x3 r k) x4 j := by
  rw [val_main_v21_apply, val_main_v19_apply, val_main_v20_apply, val_main_cst_4_apply, val_main_v18_apply,
    val_main_cst_3_apply, val_main_v17_apply, val_main_v16_apply, val_main_cst_2_apply, val_main_v15_apply,
    val_main_v14_apply, val_main_cst_1_apply, val_main_v13_apply, val_main_v12_apply, val_main_cst_0_apply,
    val_main_v11_apply, val_main_cst_apply]
  simp only [val_main_v10_apply, val_main_v9_apply, val_main_v7_apply, val_main_v5_apply, val_main_v8_apply,
    val_main_v6_apply, idx_v5_v7_ix, idx_v6_v8_ix, hidden_eq,
    Ideal.addf_def, Ideal.subf_def, Ideal.mulf_def, Ideal.hostDivf_def, Ideal.hostPowf_def, Ideal.ofBits_def]
  rfl

/-- The reference's second result at an entry is the direct spelling of the soft assignment of that row of the hidden layer. -/
theorem assign_eq (x0 : (⟨S10000x128, .f32⟩ : BufTy).Contents (Elt Ideal)) (x1 : (⟨S10000x10000, .f32⟩ : BufTy).Contents (Elt Ideal))
    (x2 : (⟨S128x64, .f32⟩ : BufTy).Contents (Elt Ideal)) (x3 : (⟨S64, .f32⟩ : BufTy).Contents (Elt Ideal))
    (x4 : (⟨S10x64, .f32⟩ : BufTy).Contents (Elt Ideal)) (r : Fin 10000) (j : Fin 10) :
    val_main_v25 (F := Ideal) x0 x1 x2 x3 x4 (ix2 r j) = assignDirect (fun k => hidden x0 x1 x2 x3 r k) x4 j := by
  rw [val_main_v25_apply, val_main_v24_apply, val_main_v23_apply, val_main_v22_apply, val_main_cst_5_apply]
  simp only [idx_v22_v23_v24_ix, weight_eq, Ideal.hostDivf_def, Ideal.ofBits_def]
  rfl

end Cert.ReferenceIdeal.RefValue

end
-- ==== Proof.SpecAlgebra.lean ====
/-
  The two spellings of the soft assignment agree on real entries.

  Write a = o_k, b = mu[j,k].  Over the reals Σ (a − b)² = Σ a² − 2·Σ a·b + Σ b², so both programs hold the same
  squared distance d ≥ 0.  The kernel's scale κ is the exact reciprocal of the word α the reference divides by
  (α = 13421773 / 2²⁶, κ = 2²⁶ / 13421773), hence d·κ = d/α, and B = 1 + d/α + ε ≥ 1 > 0 in both.  For B > 0,
  (1/B)^c = exp(c · log(1/B)) = exp(−c · log B), and the word −c is the negation of the word c.  The weights agree,
  so the normalised assignments do (the reference's sum starts from the word zero, which is 0).
-/
import proofs.«160047_g75067438399519_cont_9to1c4b_260_25_alg».proof.Proof.Spec
import Mathlib.Analysis.SpecialFunctions.Pow.Real
import Mathlib.Analysis.SpecialFunctions.Log.Basic
import Mathlib.Data.EReal.Basic
import Mathlib.Data.EReal.Operations
import Mathlib.Data.EReal.Inv
import Mathlib.Algebra.BigOperators.Ring.Finset
import Mathlib.Algebra.Order.BigOperators.Ring.Finset

noncomputable section

namespace Cert.GcnDec

open Idealize.ShloMosaic Idealize.ShloMosaic.ValueIdx

/-! ## The float words of the two programs, as the reals they denote -/

theorem word_zero : Ideal.ofBits .f32 0x00000000#32 = 0 := by
  simp [Ideal.ofBits, Ideal.ieee]

theorem word_one : Ideal.ofBits .f32 0x3F800000#32 = ((1 : ℝ) : EReal) := by
  simp [Ideal.ofBits, Ideal.ieee, -EReal.coe_mul]; norm_num

theorem word_two : Ideal.ofBits .f32 0x40000000#32 = ((2 : ℝ) : EReal) := by
  simp [Ideal.ofBits, Ideal.ieee, -EReal.coe_mul]; norm_num

/-- α: the f32 nearest 0.2. -/
theorem word_alpha : Ideal.ofBits .f32 0x3E4CCCCD#32 = ((13421773 / 67108864 : ℝ) : EReal) := by
  simp [Ideal.ofBits, Ideal.ieee, -EReal.coe_mul]; norm_num

/-- ε: the f32 nearest 1e-8. -/
theorem word_eps : Ideal.ofBits .f32 0x322BCC77#32 = ((11258999 / 1125899906842624 : ℝ) : EReal) := by
  simp [Ideal.ofBits, Ideal.ieee, -EReal.coe_mul]; norm_num

/-- c: the f32 nearest 0.6, -/
theorem word_c : Ideal.ofBits .f32 0x3F19999A#32 = ((10066330 / 16777216 : ℝ) : EReal) := by
  simp [Ideal.ofBits, Ideal.ieee, -EReal.coe_mul]; norm_num

/-- and the same word with the sign bit set. -/
theorem word_neg_c : Ideal.ofBits .f32 0xBF19999A#32 = ((-(10066330 / 16777216) : ℝ) : EReal) := by
  simp [Ideal.ofBits, Ideal.ieee, -EReal.coe_mul]; norm_num

/-! ## Sums of real entries -/

theorem coe_sum {ι : Type*} (s : Finset ι) (f : ι → ℝ) : ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

/-- A sum of products of real entries is real. -/
theorem sum_mul_coe {ι : Type*} (s : Finset ι) (f g : ι → ℝ) :
    ∑ i ∈ s, (f i : EReal) * (g i : EReal) = ((∑ i ∈ s, f i * g i : ℝ) : EReal) := by
  rw [coe_sum]; exact Finset.sum_congr rfl fun i _ => (EReal.coe_mul _ _).symm

/-! ## The hidden layer of real inputs is real -/

theorem hidden_real (x : SX.Idx → EReal) (adj : SA.Idx → EReal) (W : SW.Idx → EReal) (b : SB.Idx → EReal)
    (hx : ∀ i, ∃ r : ℝ, x i = (r : EReal)) (hadj : ∀ i, ∃ r : ℝ, adj i = (r : EReal))
    (hW : ∀ i, ∃ r : ℝ, W i = (r : EReal)) (hb : ∀ i, ∃ r : ℝ, b i = (r : EReal)) (r : Fin 10000) (k : Fin 64) :
    ∃ v : ℝ, hidden x adj W b r k = (v : EReal) := by
  choose xr hxr using hx
  choose ar har using hadj
  choose wr hwr using hW
  choose br hbr using hb
  refine ⟨(∑ n : Fin 10000, ar (ix2 r n) * ∑ f : Fin 128, xr (ix2 n f) * wr (ix2 f k)) + br (ix1 k), ?_⟩
  unfold hidden support
  simp only [hxr, har, hwr, hbr, sum_mul_coe]
  rw [EReal.coe_add]

/-! ## The weights agree -/

section Weights

variable (or : Fin 64 → ℝ) (mur : SM.Idx → ℝ)

/-- The squared distance from the row to centre `j`, over the reals. -/
def dist2 (j : Fin 10) : ℝ := ∑ k : Fin 64, (or k - mur (ix2 j k)) * (or k - mur (ix2 j k))

theorem dist2_nonneg (j : Fin 10) : 0 ≤ dist2 or mur j :=
  Finset.sum_nonneg fun k _ => mul_self_nonneg _

/-- The square expands under the sum. -/
theorem dist2_expand (j : Fin 10) :
    ((∑ k : Fin 64, or k * or k) - 2 * (∑ k : Fin 64, or k * mur (ix2 j k))) + (∑ k : Fin 64, mur (ix2 j k) * mur (ix2 j k))
      = dist2 or mur j := by
  unfold dist2
  rw [Finset.mul_sum, ← Finset.sum_sub_distrib, ← Finset.sum_add_distrib]
  exact Finset.sum_congr rfl fun k _ => by ring

theorem sqDistExpanded_coe (j : Fin 10) :
    sqDistExpanded (fun k => (or k : EReal)) (fun i => (mur i : EReal)) j = (dist2 or mur j : EReal) := by
  unfold sqDistExpanded
  rw [word_two, sum_mul_coe, sum_mul_coe, sum_mul_coe, ← EReal.coe_mul, ← EReal.coe_sub, ← EReal.coe_add, dist2_expand]

theorem sqDist_coe (j : Fin 10) :
    sqDist (fun k => (or k : EReal)) (fun i => (mur i : EReal)) j = (dist2 or mur j : EReal) := by
  unfold sqDist dist2
  rw [word_zero, zero_add, coe_sum]
  exact Finset.sum_congr rfl fun k _ => by rw [← EReal.coe_sub, ← EReal.coe_mul]

/-- The common base `1 + d/α + ε`, over the reals. -/
def baseR (j : Fin 10) : ℝ := 1 + dist2 or mur j * (67108864 / 13421773) + 11258999 / 1125899906842624

theorem baseR_pos (j : Fin 10) : 0 < baseR or mur j := by
  have h := dist2_nonneg or mur j
  unfold baseR
  positivity

theorem baseExpanded_coe (j : Fin 10) :
    baseExpanded ((67108864 / 13421773 : ℝ) : EReal) (fun k => (or k : EReal)) (fun i => (mur i : EReal)) j
      = (baseR or mur j : EReal) := by
  unfold baseExpanded baseR
  rw [sqDistExpanded_coe, word_one, word_eps, ← EReal.coe_mul, ← EReal.coe_add, ← EReal.coe_add]

theorem baseDirect_coe (j : Fin 10) :
    baseDirect (fun k => (or k : EReal)) (fun i => (mur i : EReal)) j = (baseR or mur j : EReal) := by
  unfold baseDirect baseR
  rw [sqDist_coe, word_one, word_eps, word_alpha, Ideal.div_coe (by norm_num), ← EReal.coe_mul, ← EReal.coe_add, ← EReal.coe_add]
  norm_num

/-- `exp(−c · log B) = (1/B)^c` for `B > 0`. -/
theorem weight_eq (j : Fin 10) :
    weightExpanded ((67108864 / 13421773 : ℝ) : EReal) (fun k => (or k : EReal)) (fun i => (mur i : EReal)) j
      = weightDirect (fun k => (or k : EReal)) (fun i => (mur i : EReal)) j := by
  have hB := baseR_pos or mur j
  unfold weightExpanded weightDirect
  rw [baseExpanded_coe, baseDirect_coe, word_neg_c, word_c, word_one, Ideal.div_coe (ne_of_gt hB), ← EReal.coe_mul,
    Ideal.log_coe, if_neg (not_le.mpr hB), ← EReal.coe_mul, Ideal.exp_coe, Ideal.pow_coe_coe]
  congr 1
  show Real.exp _ = (1 * (1 / baseR or mur j)) ^ (10066330 / 16777216 : ℝ)
  rw [one_mul, one_div, Real.rpow_def_of_pos (inv_pos.mpr hB), Real.log_inv]
  congr 1
  ring

end Weights

/-! ## The assignments agree -/

theorem assignExpanded_eq_assignDirect (o : Fin 64 → EReal) (mu : SM.Idx → EReal)
    (ho : ∀ k, ∃ r : ℝ, o k = (r : EReal)) (hmu : ∀ i, ∃ r : ℝ, mu i = (r : EReal)) (j : Fin 10) :
    assignExpanded ((67108864 / 13421773 : ℝ) : EReal) o mu j = assignDirect o mu j := by
  choose or hor using ho
  choose mur hmur using hmu
  obtain rfl : o = fun k => (or k : EReal) := funext hor
  obtain rfl : mu = fun i => (mur i : EReal) := funext hmur
  unfold assignExpanded assignDirect
  rw [word_zero, zero_add]
  simp only [weight_eq]

end Cert.GcnDec

end
-- ==== Proof.FiniteInputs.lean ====
import proofs.«160047_g75067438399519_cont_9to1c4b_260_25_alg».proof.Pre_finite_inputs
import Idealize.ShloMosaic.PureOps.Ideal
import Idealize.ShloMosaic.Lib.ValueIdx
import Idealize.ShloMosaic.Lib.ReduceAll

noncomputable section

namespace Cert.Pre_finite_inputs.Finite

open Idealize.ShloMosaic Cert.Pre_finite_inputs

/-- A rank-0 array has exactly one index (the empty tuple of coordinates). -/
instance subsingleton_scalar_idx : Subsingleton S_.Idx := ⟨fun a b => funext fun d => d.elim0⟩

/-- The f32 pattern `0x7F800000` (sign 0, exponent all ones, significand 0) denotes `+∞`. -/
theorem inf_bits : Ideal.ofBits .f32 0x7F800000#32 = (⊤ : EReal) := by
  simp [Ideal.ofBits, Ideal.ieee]

/-- An extended real whose absolute value `max a (-a)` lies strictly below `+∞` is a real number:
    `|⊥| = max ⊥ ⊤ = ⊤` and `|⊤| = max ⊤ ⊥ = ⊤`, neither of which is `< ⊤`. -/
theorem real_of_abs_lt_top (a : EReal) (h : max a (-a) < (⊤ : EReal)) : ∃ r : ℝ, a = (r : EReal) := by
  induction a using EReal.rec with
  | bot => simp at h
  | coe r => exact ⟨r, rfl⟩
  | top => simp at h

/-- One conjunct `all(|x| < +∞)`, at any shape: if the conjunction over all entries of the bits
    `|x i| < +∞` is 1, then every bit is 1, so every `|x i|` lies strictly below `+∞` and `x i` is real. -/
theorem real_of_all {s : Shape} {axes : List (Fin s.rank)} (x : FVec Ideal s .f32)
    (hb : S_.BroadcastsInDim s (![] : Fin 0 → Fin s.rank)) (hr : s.ReducesTo axes S_) (hu : 0 < S_.numel)
    (e : Host.reduce IntOp.andi (cmpf .olt (Host.absf x) (broadcastInDim s ![] hb (constant S_ .f32 0x7F800000#32)))
          (constantI S_ 1 1#1) hr hu ValueIdx.ix0 = 1#1) :
    ∀ i, ∃ r : ℝ, x i = (r : EReal) := by
  intro i
  -- the conjunction is 1, so the bit at entry `i` is 1
  have hi := Host.reduce_andi_all _ _ hr hu _ e i
  -- that bit is the comparison `max (x i) (-(x i)) < +∞` on the extended reals
  have hc : Ideal.cmp .olt (max (x i) (-(x i))) (Ideal.ofBits .f32 0x7F800000#32) = 1#1 := hi
  rw [inf_bits] at hc
  have hlt : max (x i) (-(x i)) < (⊤ : EReal) := by
    by_contra hn
    simp [Ideal.cmp, hn] at hc
  exact real_of_abs_lt_top _ hlt

/-- Under the precondition every entry of every input is a real number: each `all(|·| < +inf)` conjunct, read at an
    entry, excludes the two infinities. -/
theorem real_of_pre [Facts] (x0 : FVec Ideal S10000x128 .f32) (x1 : FVec Ideal S10000x10000 .f32) (x2 : FVec Ideal S128x64 .f32)
    (x3 : FVec Ideal S64 .f32) (x4 : FVec Ideal S10x64 .f32)
    (h : fn (F := Ideal) x0 x1 x2 x3 x4 = fun _ => 1#1) :
    (∀ i, ∃ r : ℝ, x0 i = (r : EReal)) ∧ (∀ i, ∃ r : ℝ, x1 i = (r : EReal)) ∧ (∀ i, ∃ r : ℝ, x2 i = (r : EReal))
      ∧ (∀ i, ∃ r : ℝ, x3 i = (r : EReal)) ∧ (∀ i, ∃ r : ℝ, x4 i = (r : EReal)) := by
  -- the predicate's one value is 1
  have h0 := congrFun h ValueIdx.ix0
  unfold fn fn_part1 at h0
  dsimp only at h0
  -- it is the conjunction (((c0 ∧ c1) ∧ c2) ∧ c3) ∧ c4 of the five per-input bits: each of them is 1
  obtain ⟨h0123, e4⟩ := IntOp.andi_eq_one.1 h0
  obtain ⟨h012, e3⟩ := IntOp.andi_eq_one.1 h0123
  obtain ⟨h01, e2⟩ := IntOp.andi_eq_one.1 h012
  obtain ⟨e0, e1⟩ := IntOp.andi_eq_one.1 h01
  exact ⟨real_of_all x0 _ _ _ e0, real_of_all x1 _ _ _ e1, real_of_all x2 _ _ _ e2, real_of_all x3 _ _ _ e3,
    real_of_all x4 _ _ _ e4⟩

end Cert.Pre_finite_inputs.Finite

end
-- ==== Proof.lean ====
/-
  A graph-convolution layer with a Student-t soft assignment, as one pipelined kernel, against its plain reference.

  Both programs compute the hidden layer H = adj · (x · W) + b with the same sums, so the first result agrees
  term by term.  For the second they spell the weight (1 + ‖H_r − mu_j‖²/α + ε)^(−c) differently: the kernel
  expands the square, multiplies by a constant named as the exact reciprocal of the reference's α, and raises to the
  power through exp and log; the reference divides, takes the reciprocal and raises it to the power c.  Under the
  precondition every input entry is real, so every hidden entry is real, and over the reals the two spellings are
  one number (Proof/SpecAlgebra.lean).  The kernel side is read off its frame run: the scratch holds the support
  after every grid point, each point writes its 400 rows of a 128-column array, the 25 points cover it, and the host
  cuts the two results out of it (Proof/KernelPieces.lean, Proof/KernelArray.lean, over the payload lemmas of
  Proof/PayloadLayer.lean and Proof/PayloadAssign.lean).  The reference side is read one operation at a time
  (Proof/RefValue.lean).
-/
import proofs.«160047_g75067438399519_cont_9to1c4b_260_25_alg».proof.Defs
import proofs.«160047_g75067438399519_cont_9to1c4b_260_25_alg».proof.Proof.Gen.Kernel
import proofs.«160047_g75067438399519_cont_9to1c4b_260_25_alg».proof.Proof.Gen.Kernel.Skeleton
import proofs.«160047_g75067438399519_cont_9to1c4b_260_25_alg».proof.Proof.Gen.Kernel.Launch
import proofs.«160047_g75067438399519_cont_9to1c4b_260_25_alg».proof.Proof.Gen.Kernel.Points
import proofs.«160047_g75067438399519_cont_9to1c4b_260_25_alg».proof.Proof.Gen.Kernel.Frame
import proofs.«160047_g75067438399519_cont_9to1c4b_260_25_alg».proof.Proof.Gen.KernelIdeal
import proofs.«160047_g75067438399519_cont_9to1c4b_260_25_alg».proof.Proof.Gen.KernelIdeal.Skeleton
import proofs.«160047_g75067438399519_cont_9to1c4b_260_25_alg».proof.Proof.Gen.KernelIdeal.Launch
import proofs.«160047_g75067438399519_cont_9to1c4b_260_25_alg».proof.Proof.Gen.KernelIdeal.Points
import proofs.«160047_g75067438399519_cont_9to1c4b_260_25_alg».proof.Proof.Gen.KernelIdeal.Frame
import proofs.«160047_g75067438399519_cont_9to1c4b_260_25_alg».proof.Proof.Gen.ReferenceIdeal
import proofs.«160047_g75067438399519_cont_9to1c4b_260_25_alg».proof.Proof.Gen.ReferenceIdeal.Run
import proofs.«160047_g75067438399519_cont_9to1c4b_260_25_alg».proof.Proof.Gen.ReferenceIdeal.Read
import proofs.«160047_g75067438399519_cont_9to1c4b_260_25_alg».proof.Proof.Gen.Pre_finite_inputs
import proofs.«160047_g75067438399519_cont_9to1c4b_260_25_alg».proof.Proof.KernelArray
import proofs.«160047_g75067438399519_cont_9to1c4b_260_25_alg».proof.Proof.RefValue
import proofs.«160047_g75067438399519_cont_9to1c4b_260_25_alg».proof.Proof.SpecAlgebra
import proofs.«160047_g75067438399519_cont_9to1c4b_260_25_alg».proof.Proof.FiniteInputs
import Idealize.ShloMosaic.Adequacy
import Idealize.ShloMosaic.Init

noncomputable section

namespace Cert.Proof

open Idealize.ShloMosaic Idealize.SL.Sem Idealize.ShloMosaic.ValueIdx

theorem frame_k : Cert.frame_Kernel := fun m ρ _ => Cert.Kernel.Gen.frame m ρ

theorem frame_ki : Cert.frame_KernelIdeal := fun m ρ _ => Cert.KernelIdeal.Gen.frame m ρ

/-- The reference's run keeps its arguments. -/
theorem frame_ri : Cert.frame_ReferenceIdeal := fun m ρ _ =>
  (θ_run Cert.ReferenceIdeal.defs _ _).mono (fun _ h c => (h c).2.2) (Cert.ReferenceIdeal.Value.run (F := Ideal) m ρ)

/-- The one named constant: the kernel's scale 5.0 read as the exact reciprocal of the reference's α. -/
theorem preserves : Cert.preserves_Kernel_KernelIdeal :=
  IdealRules.named_const.statement Cert.KernelIdeal.κ "inv_alpha" .f32 0x40A00000#32 ((67108864 / 13421773 : ℝ) : EReal) rfl

/-- The named scale is that rational. -/
theorem invAlpha_eq : Cert.KernelIdeal.ArrayValue.invAlpha = ((67108864 / 13421773 : ℝ) : EReal) :=
  IdealRules.named_const.ideal_named_scalar _ _ _ _ rfl

/-- The kernel's results (its run read back) and the reference's (its operations read one by one) are the hidden
    layer and its soft assignment in the two spellings, which agree on real entries. -/
theorem algebraic : Cert.algebraic_KernelIdeal_ReferenceIdeal := by
  intro m ρ m' ρ' hpre hagree
  refine ⟨fun c => Cert.KernelIdeal.ArrayValue.hiddenArr m c, fun c => Cert.KernelIdeal.ArrayValue.assignArr m c,
    Cert.KernelIdeal.ArrayValue.run m ρ, ?_⟩
  refine (θ_run Cert.ReferenceIdeal.defs _ _).mono (fun _ h c => ⟨(h c).1.trans ?_, (h c).2.1.trans ?_, (h c).2.2⟩)
    (Cert.ReferenceIdeal.Value.run (F := Ideal) m' ρ')
  · refine (Cert.ReferenceIdeal.Read.val_main_v4_eq _ _ _ _).trans ?_
    rw [(hagree c).1, (hagree c).2.1, (hagree c).2.2.1, (hagree c).2.2.2.1]
    funext i
    obtain ⟨r, k, rfl⟩ : ∃ (r : Fin 10000) (k : Fin 64), i = ix2 r k := ⟨i 0, i 1, eq_ix2 i⟩
    exact Cert.ReferenceIdeal.RefValue.hidden_eq _ _ _ _ r k
  · refine (Cert.ReferenceIdeal.Read.val_main_v25_eq m' c).trans ?_
    rw [(hagree c).1, (hagree c).2.1, (hagree c).2.2.1, (hagree c).2.2.2.1, (hagree c).2.2.2.2]
    obtain ⟨hx, hadj, hW, hb, hmu⟩ := Cert.Pre_finite_inputs.Finite.real_of_pre _ _ _ _ _ (hpre c)
    funext i
    obtain ⟨r, j, rfl⟩ : ∃ (r : Fin 10000) (j : Fin 10), i = ix2 r j := ⟨i 0, i 1, eq_ix2 i⟩
    rw [Cert.ReferenceIdeal.RefValue.assign_eq]
    show _ = Cert.GcnDec.assignExpanded Cert.KernelIdeal.ArrayValue.invAlpha (Cert.KernelIdeal.ArrayValue.hrow m c r)
      (Cert.KernelIdeal.ArrayValue.argM m c) j
    rw [invAlpha_eq]
    exact (Cert.GcnDec.assignExpanded_eq_assignDirect _ _
      (fun k => Cert.GcnDec.hidden_real _ _ _ _ hx hadj hW hb r k) hmu j).symm

theorem claim : Cert.Claim := ⟨Cert.Kernel.Gen.facts, Cert.KernelIdeal.Gen.facts, Cert.ReferenceIdeal.Gen.facts,
  Cert.Pre_finite_inputs.Gen.facts, frame_k, frame_ki, frame_ri, preserves, algebraic⟩

end Cert.Proof

end
